-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S3x64x64 : Shape := ⟨3, ![3, 64, 64]⟩
abbrev S3x64 : Shape := ⟨2, ![3, 64]⟩
abbrev S2x64 : Shape := ⟨2, ![2, 64]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2x64 .f32) (main_arg6 : FVec F S2 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S2x64 .f32 := Host.absf main_arg5
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S100000x64 .f32) (main_arg1 : IVec S2x1000000 32) (main_arg2 : FVec F S3x64x64 .f32) (main_arg3 : FVec F S3x64 .f32) (main_arg4 : FVec F S3x64x64 .f32) (main_arg5 : FVec F S2x64 .f32) (main_arg6 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg2
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg3
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg5 main_arg6 main_v13 main_v16
-- ==== Kernel.lean ====
abbrev S100000x64 : Shape := ⟨2, ![100000, 64]⟩
abbrev S2x1000000 : Shape := ⟨2, ![2, 1000000]⟩
abbrev S3x64x64 : Shape := ⟨3, ![3, 64, 64]⟩
abbrev S3x64 : Shape := ⟨2, ![3, 64]⟩
abbrev S2x64 : Shape := ⟨2, ![2, 64]⟩
abbrev S2 : Shape := ⟨1, ![2]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S3x1x64 : Shape := ⟨3, ![3, 1, 64]⟩
abbrev S64x2 : Shape := ⟨2, ![64, 2]⟩
abbrev S1x2 : Shape := ⟨2, ![1, 2]⟩
abbrev S1000000x64 : Shape := ⟨2, ![1000000, 64]⟩
abbrev S1x64x64 : Shape := ⟨3, ![1, 64, 64]⟩
abbrev S64x64 : Shape := ⟨2, ![64, 64]⟩
abbrev S1x1x64 : Shape := ⟨3, ![1, 1, 64]⟩
abbrev S1x64 : Shape := ⟨2, ![1, 64]⟩
abbrev S5000x64 : Shape := ⟨2, ![5000, 64]⟩
abbrev S100000x2 : Shape := ⟨2, ![100000, 2]⟩
abbrev S5000x2 : Shape := ⟨2, ![5000, 2]⟩

abbrev nBuf : Space → Nat
  | .hbm => 99
  | .vmem => 33
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S3x64x64, .f32⟩
  | .hbm, ⟨3, _⟩ => ⟨S3x64, .f32⟩
  | .hbm, ⟨4, _⟩ => ⟨S3x64x64, .f32⟩
  | .hbm, ⟨5, _⟩ => ⟨S2x64, .f32⟩
  | .hbm, ⟨6, _⟩ => ⟨S2, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S_, .f32⟩
  | .hbm, ⟨12, _⟩ => ⟨S1000000, .f32⟩
  | .hbm, ⟨13, _⟩ => ⟨S_, .f32⟩
  | .hbm, ⟨14, _⟩ => ⟨S100000, .f32⟩
  | .hbm, ⟨15, _⟩ => ⟨S1000000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S3x64x64, .f32⟩
  | .hbm, ⟨25, _⟩ => ⟨S3x64x64, .bf16⟩
  | .hbm, ⟨26, _⟩ => ⟨S3x64x64, .f32⟩
  | .hbm, ⟨27, _⟩ => ⟨S3x64x64, .bf16⟩
  | .hbm, ⟨28, _⟩ => ⟨S3x1x64, .f32⟩
  | .hbm, ⟨29, _⟩ => ⟨S64x2, .f32⟩
  | .hbm, ⟨30, _⟩ => ⟨S64x2, .bf16⟩
  | .hbm, ⟨31, _⟩ => ⟨S1x2, .f32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000x64, .f32⟩
  | .hbm, ⟨41, _⟩ => ⟨S_, .f32⟩
  | .hbm, ⟨42, _⟩ => ⟨S100000x64, .f32⟩
  | .hbm, ⟨43, _⟩ => ⟨S1000000x1, .i32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S1x64x64, .bf16⟩
  | .hbm, ⟨48, _⟩ => ⟨S64x64, .bf16⟩
  | .hbm, ⟨49, _⟩ => ⟨S1x64x64, .bf16⟩
  | .hbm, ⟨50, _⟩ => ⟨S64x64, .bf16⟩
  | .hbm, ⟨51, _⟩ => ⟨S1x1x64, .f32⟩
  | .hbm, ⟨52, _⟩ => ⟨S1x64, .f32⟩
  | .hbm, ⟨53, _⟩ => ⟨S100000x64, .f32⟩
  | .hbm, ⟨54, _⟩ => ⟨S_, .i32⟩
  | .hbm, ⟨55, _⟩ => ⟨S1000000, .i32⟩
  | .hbm, ⟨56, _⟩ => ⟨S1000000, .i1⟩
  | .hbm, ⟨57, _⟩ => ⟨S_, .i32⟩
  | .hbm, ⟨58, _⟩ => ⟨S1000000, .i32⟩
  | .hbm, ⟨59, _⟩ => ⟨S1000000, .i32⟩
  | .hbm, ⟨60, _⟩ => ⟨S1000000, .i32⟩
  | .hbm, ⟨61, _⟩ => ⟨S1000000x1, .i32⟩
  | .hbm, ⟨62, _⟩ => ⟨S1000000x64, .f32⟩
  | .hbm, ⟨63, _⟩ => ⟨S_, .f32⟩
  | .hbm, ⟨64, _⟩ => ⟨S100000x64, .f32⟩
  | .hbm, ⟨65, _⟩ => ⟨S1000000x1, .i32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S1x64x64, .bf16⟩
  | .hbm, ⟨70, _⟩ => ⟨S64x64, .bf16⟩
  | .hbm, ⟨71, _⟩ => ⟨S1x64x64, .bf16⟩
  | .hbm, ⟨72, _⟩ => ⟨S64x64, .bf16⟩
  | .hbm, ⟨73, _⟩ => ⟨S1x1x64, .f32⟩
  | .hbm, ⟨74, _⟩ => ⟨S1x64, .f32⟩
  | .hbm, ⟨75, _⟩ => ⟨S100000x64, .f32⟩
  | .hbm, ⟨76, _⟩ => ⟨S_, .i32⟩
  | .hbm, ⟨77, _⟩ => ⟨S1000000, .i32⟩
  | .hbm, ⟨78, _⟩ => ⟨S1000000, .i1⟩
  | .hbm, ⟨79, _⟩ => ⟨S_, .i32⟩
  | .hbm, ⟨80, _⟩ => ⟨S1000000, .i32⟩
  | .hbm, ⟨81, _⟩ => ⟨S1000000, .i32⟩
  | .hbm, ⟨82, _⟩ => ⟨S1000000, .i32⟩
  | .hbm, ⟨83, _⟩ => ⟨S1000000x1, .i32⟩
  | .hbm, ⟨84, _⟩ => ⟨S1000000x64, .f32⟩
  | .hbm, ⟨85, _⟩ => ⟨S_, .f32⟩
  | .hbm, ⟨86, _⟩ => ⟨S100000x64, .f32⟩
  | .hbm, ⟨87, _⟩ => ⟨S1000000x1, .i32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S1x64x64, .bf16⟩
  | .hbm, ⟨92, _⟩ => ⟨S64x64, .bf16⟩
  | .hbm, ⟨93, _⟩ => ⟨S1x64x64, .bf16⟩
  | .hbm, ⟨94, _⟩ => ⟨S64x64, .bf16⟩
  | .hbm, ⟨95, _⟩ => ⟨S1x1x64, .f32⟩
  | .hbm, ⟨96, _⟩ => ⟨S1x64, .f32⟩
  | .hbm, ⟨97, _⟩ => ⟨S100000x64, .f32⟩
  | .hbm, ⟨98, _⟩ => ⟨S100000x2, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .bf16⟩
  | .local _ .vmem, ⟨5, _⟩ => ⟨S64x64, .bf16⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .bf16⟩
  | .local _ .vmem, ⟨14, _⟩ => ⟨S64x64, .bf16⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .bf16⟩
  | .local _ .vmem, ⟨23, _⟩ => ⟨S64x64, .bf16⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S64x2, .bf16⟩
  | .local _ .vmem, ⟨30, _⟩ => ⟨S1x2, .f32⟩
  | .local _ .vmem, ⟨31, _⟩ => ⟨S5000x2, .f32⟩
  | .local _ .vmem, ⟨32, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_5 : Ref sig .tc := ⟨.hbm, 54, rfl⟩
abbrev main_v40 : Ref sig .tc := ⟨.hbm, 55, rfl⟩
abbrev main_v41 : Ref sig .tc := ⟨.hbm, 56, rfl⟩
abbrev main_c_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_c_8 : Ref sig .tc := ⟨.hbm, 76, rfl⟩
abbrev main_v59 : Ref sig .tc := ⟨.hbm, 77, rfl⟩
abbrev main_v60 : Ref sig .tc := ⟨.hbm, 78, rfl⟩
abbrev main_c_9 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_10 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x2 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x2 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  transposes_S3x64x64_S3x64x64_0_2_1 : S3x64x64.Transposes [0, 2, 1] S3x64x64
  bitsLt_bf16_f32 : FTy.bits .bf16 < FTy.bits .f32
  shapeCasts_S3x64_S3x1x64 : S3x64.ShapeCasts S3x1x64
  transposes_S2x64_S64x2_1_0 : S2x64.Transposes [1, 0] S64x2
  shapeCasts_S2_S1x2 : S2.ShapeCasts S1x2
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  slices_S3x1x64_S1x1x64_0_0_0 : S3x1x64.Slices ![0, 0, 0] S1x1x64
  shapeCasts_S1x1x64_S1x64 : S1x1x64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S3x64x64_S1x64x64_1_0_0 : S3x64x64.Slices ![1, 0, 0] S1x64x64
  slices_S3x1x64_S1x1x64_1_0_0 : S3x1x64.Slices ![1, 0, 0] S1x1x64
  slices_S3x64x64_S1x64x64_2_0_0 : S3x64x64.Slices ![2, 0, 0] S1x64x64
  slices_S3x1x64_S1x1x64_2_0_0 : S3x1x64.Slices ![2, 0, 0] S1x1x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .bf16 = 32 ∨ (Rect.block (s := S64x64) S64x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .bf16 = 32 ∨ (Rect.block (s := S64x64) S64x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x2.size a ≤ S64x2.size a
  hwx3_1 : ∀ i : grid3.Coords, EltTy.bits .bf16 = 32 ∨ (Rect.block (s := S64x2) S64x2.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x2.size a ≤ S100000x2.size a
  hwx3_3 : ∀ i : grid3.Coords, EltTy.bits .f32 = 32 ∨ (Rect.block (s := S100000x2) S5000x2.size (cc3_transform_3 i) (hinb3_3 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_v32) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v51) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v70) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v72) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v74) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v76) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v77) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v77) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S64x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v20) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S5000x2.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S3x64x64 : Shape := ⟨3, ![3, 64, 64]⟩
abbrev S3x64 : Shape := ⟨2, ![3, 64]⟩
abbrev S2x64 : Shape := ⟨2, ![2, 64]⟩
abbrev S2 : Shape := ⟨1, ![2]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S64x2 : Shape := ⟨2, ![64, 2]⟩
abbrev S100000x2 : Shape := ⟨2, ![100000, 2]⟩
abbrev S1x2 : Shape := ⟨2, ![1, 2]⟩

abbrev nBuf : Space → Nat
  | .hbm => 122
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S3x64x64, .f32⟩
  | .hbm, ⟨3, _⟩ => ⟨S3x64, .f32⟩
  | .hbm, ⟨4, _⟩ => ⟨S3x64x64, .f32⟩
  | .hbm, ⟨5, _⟩ => ⟨S2x64, .f32⟩
  | .hbm, ⟨6, _⟩ => ⟨S2, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S_, .f32⟩
  | .hbm, ⟨12, _⟩ => ⟨S1000000, .f32⟩
  | .hbm, ⟨13, _⟩ => ⟨S_, .f32⟩
  | .hbm, ⟨14, _⟩ => ⟨S100000, .f32⟩
  | .hbm, ⟨15, _⟩ => ⟨S1000000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x64, .f32⟩
  | .hbm, ⟨33, _⟩ => ⟨S_, .f32⟩
  | .hbm, ⟨34, _⟩ => ⟨S100000x64, .f32⟩
  | .hbm, ⟨35, _⟩ => ⟨S1000000x1, .i32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S1x64x64, .f32⟩
  | .hbm, ⟨40, _⟩ => ⟨S64x64, .f32⟩
  | .hbm, ⟨41, _⟩ => ⟨S64x64, .f32⟩
  | .hbm, ⟨42, _⟩ => ⟨S100000x64, .f32⟩
  | .hbm, ⟨43, _⟩ => ⟨S1x64, .f32⟩
  | .hbm, ⟨44, _⟩ => ⟨S64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S1x64x64, .f32⟩
  | .hbm, ⟨49, _⟩ => ⟨S64x64, .f32⟩
  | .hbm, ⟨50, _⟩ => ⟨S64x64, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000x64, .f32⟩
  | .hbm, ⟨55, _⟩ => ⟨S100000x64, .f32⟩
  | .hbm, ⟨56, _⟩ => ⟨S_, .i32⟩
  | .hbm, ⟨57, _⟩ => ⟨S1000000, .i32⟩
  | .hbm, ⟨58, _⟩ => ⟨S1000000, .i1⟩
  | .hbm, ⟨59, _⟩ => ⟨S_, .i32⟩
  | .hbm, ⟨60, _⟩ => ⟨S1000000, .i32⟩
  | .hbm, ⟨61, _⟩ => ⟨S1000000, .i32⟩
  | .hbm, ⟨62, _⟩ => ⟨S1000000, .i32⟩
  | .hbm, ⟨63, _⟩ => ⟨S1000000x1, .i32⟩
  | .hbm, ⟨64, _⟩ => ⟨S1000000x64, .f32⟩
  | .hbm, ⟨65, _⟩ => ⟨S_, .f32⟩
  | .hbm, ⟨66, _⟩ => ⟨S100000x64, .f32⟩
  | .hbm, ⟨67, _⟩ => ⟨S1000000x1, .i32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S1x64x64, .f32⟩
  | .hbm, ⟨72, _⟩ => ⟨S64x64, .f32⟩
  | .hbm, ⟨73, _⟩ => ⟨S64x64, .f32⟩
  | .hbm, ⟨74, _⟩ => ⟨S100000x64, .f32⟩
  | .hbm, ⟨75, _⟩ => ⟨S1x64, .f32⟩
  | .hbm, ⟨76, _⟩ => ⟨S64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S1x64x64, .f32⟩
  | .hbm, ⟨81, _⟩ => ⟨S64x64, .f32⟩
  | .hbm, ⟨82, _⟩ => ⟨S64x64, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000x64, .f32⟩
  | .hbm, ⟨87, _⟩ => ⟨S100000x64, .f32⟩
  | .hbm, ⟨88, _⟩ => ⟨S_, .i32⟩
  | .hbm, ⟨89, _⟩ => ⟨S1000000, .i32⟩
  | .hbm, ⟨90, _⟩ => ⟨S1000000, .i1⟩
  | .hbm, ⟨91, _⟩ => ⟨S_, .i32⟩
  | .hbm, ⟨92, _⟩ => ⟨S1000000, .i32⟩
  | .hbm, ⟨93, _⟩ => ⟨S1000000, .i32⟩
  | .hbm, ⟨94, _⟩ => ⟨S1000000, .i32⟩
  | .hbm, ⟨95, _⟩ => ⟨S1000000x1, .i32⟩
  | .hbm, ⟨96, _⟩ => ⟨S1000000x64, .f32⟩
  | .hbm, ⟨97, _⟩ => ⟨S_, .f32⟩
  | .hbm, ⟨98, _⟩ => ⟨S100000x64, .f32⟩
  | .hbm, ⟨99, _⟩ => ⟨S1000000x1, .i32⟩
  | .hbm, ⟨100, _⟩ => ⟨S100000x64, .f32⟩
  | .hbm, ⟨101, _⟩ => ⟨S100000x64, .f32⟩
  | .hbm, ⟨102, _⟩ => ⟨S100000x64, .f32⟩
  | .hbm, ⟨103, _⟩ => ⟨S1x64x64, .f32⟩
  | .hbm, ⟨104, _⟩ => ⟨S64x64, .f32⟩
  | .hbm, ⟨105, _⟩ => ⟨S64x64, .f32⟩
  | .hbm, ⟨106, _⟩ => ⟨S100000x64, .f32⟩
  | .hbm, ⟨107, _⟩ => ⟨S1x64, .f32⟩
  | .hbm, ⟨108, _⟩ => ⟨S64, .f32⟩
  | .hbm, ⟨109, _⟩ => ⟨S1x64, .f32⟩
  | .hbm, ⟨110, _⟩ => ⟨S100000x64, .f32⟩
  | .hbm, ⟨111, _⟩ => ⟨S100000x64, .f32⟩
  | .hbm, ⟨112, _⟩ => ⟨S1x64x64, .f32⟩
  | .hbm, ⟨113, _⟩ => ⟨S64x64, .f32⟩
  | .hbm, ⟨114, _⟩ => ⟨S64x64, .f32⟩
  | .hbm, ⟨115, _⟩ => ⟨S100000x64, .f32⟩
  | .hbm, ⟨116, _⟩ => ⟨S100000x64, .f32⟩
  | .hbm, ⟨117, _⟩ => ⟨S64x2, .f32⟩
  | .hbm, ⟨118, _⟩ => ⟨S100000x2, .f32⟩
  | .hbm, ⟨119, _⟩ => ⟨S1x2, .f32⟩
  | .hbm, ⟨120, _⟩ => ⟨S100000x2, .f32⟩
  | .hbm, ⟨121, _⟩ => ⟨S100000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_call0_cst : Ref sig .tc := ⟨.hbm, 53, rfl⟩
abbrev main_call0_v0 : Ref sig .tc := ⟨.hbm, 54, rfl⟩
abbrev main_v39 : Ref sig .tc := ⟨.hbm, 55, rfl⟩
abbrev main_c_5 : Ref sig .tc := ⟨.hbm, 56, rfl⟩
abbrev main_v40 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_call1_cst : Ref sig .tc := ⟨.hbm, 85, rfl⟩
abbrev main_call1_v0 : Ref sig .tc := ⟨.hbm, 86, rfl⟩
abbrev main_v66 : Ref sig .tc := ⟨.hbm, 87, rfl⟩
abbrev main_c_8 : Ref sig .tc := ⟨.hbm, 88, rfl⟩
abbrev main_v67 : Ref sig .tc := ⟨.hbm, 89, rfl⟩
abbrev main_v68 : Ref sig .tc := ⟨.hbm, 90, rfl⟩
abbrev main_c_9 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_10 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  transposes_S2x64_S64x2_1_0 : S2x64.Transposes [1, 0] S64x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.Spec.lean ====
/-
  The dense part of one SAGE layer and of the classifier, as functions of whole arrays read index by index, and the
  one law that joins the two programs' arrangements of a layer's three summands.

  A layer maps the aggregated neighbour rows `agg` and the node rows `h` (both n × d) to an n × e array:
  row r, column j holds  (Σ_k agg[r,k]·A[k,j] + Σ_k h[r,k]·B[k,j]) + b[j],  followed, in the first two layers, by
  the maximum with zero. One program adds the bias last, the other adds it between the two products; on the
  extended reals addition is commutative and associative without any finiteness, so the two agree everywhere.
-/
import Idealize.ShloMosaic.Lib.ValueIdx
import Idealize.ShloMosaic.PureOps.Ideal.Laws

noncomputable section

open scoped BigOperators

namespace Cert.Sage

open Idealize.ShloMosaic Idealize.ShloMosaic.ValueIdx

/-- Entry (r, j) of `agg·A + h·B + b`: the two rows-by-columns products summed, then the bias of column j. -/
def denseAt {n d e : ℕ} (agg h : (⟨2, ![n, d]⟩ : Shape).Idx → EReal) (A B : (⟨2, ![d, e]⟩ : Shape).Idx → EReal)
    (b : Fin e → EReal) (r : Fin n) (j : Fin e) : EReal :=
  (∑ k : Fin d, agg (ix2 r k) * A (ix2 k j) + ∑ k : Fin d, h (ix2 r k) * B (ix2 k j)) + b j

/-- The n × e array `agg·A + h·B + b`. -/
def dense {n d e : ℕ} (agg h : (⟨2, ![n, d]⟩ : Shape).Idx → EReal) (A B : (⟨2, ![d, e]⟩ : Shape).Idx → EReal)
    (b : Fin e → EReal) : (⟨2, ![n, e]⟩ : Shape).Idx → EReal :=
  fun i => denseAt agg h A B b (i 0) (i 1)

/-- The same array followed by the maximum with the number the zero word denotes. -/
def denseRelu {n d e : ℕ} (agg h : (⟨2, ![n, d]⟩ : Shape).Idx → EReal) (A B : (⟨2, ![d, e]⟩ : Shape).Idx → EReal)
    (b : Fin e → EReal) : (⟨2, ![n, e]⟩ : Shape).Idx → EReal :=
  fun i => max (denseAt agg h A B b (i 0) (i 1)) (Ideal.ofBits .f32 0x00000000#32)

/-- Entry (r, j) of `h·A + b`: one rows-by-columns product, then the bias of column j. -/
def affineAt {n d e : ℕ} (h : (⟨2, ![n, d]⟩ : Shape).Idx → EReal) (A : (⟨2, ![d, e]⟩ : Shape).Idx → EReal)
    (b : Fin e → EReal) (r : Fin n) (j : Fin e) : EReal :=
  ∑ k : Fin d, h (ix2 r k) * A (ix2 k j) + b j

/-- The n × e array `h·A + b`. -/
def affine {n d e : ℕ} (h : (⟨2, ![n, d]⟩ : Shape).Idx → EReal) (A : (⟨2, ![d, e]⟩ : Shape).Idx → EReal)
    (b : Fin e → EReal) : (⟨2, ![n, e]⟩ : Shape).Idx → EReal :=
  fun i => affineAt h A b (i 0) (i 1)

theorem dense_apply {n d e : ℕ} (agg h : (⟨2, ![n, d]⟩ : Shape).Idx → EReal) (A B : (⟨2, ![d, e]⟩ : Shape).Idx → EReal)
    (b : Fin e → EReal) (r : Fin n) (j : Fin e) : dense agg h A B b (ix2 r j) = denseAt agg h A B b r j := rfl

theorem denseRelu_apply {n d e : ℕ} (agg h : (⟨2, ![n, d]⟩ : Shape).Idx → EReal) (A B : (⟨2, ![d, e]⟩ : Shape).Idx → EReal)
    (b : Fin e → EReal) (r : Fin n) (j : Fin e) :
    denseRelu agg h A B b (ix2 r j) = max (denseAt agg h A B b r j) (Ideal.ofBits .f32 0x00000000#32) := rfl

theorem affine_apply {n d e : ℕ} (h : (⟨2, ![n, d]⟩ : Shape).Idx → EReal) (A : (⟨2, ![d, e]⟩ : Shape).Idx → EReal)
    (b : Fin e → EReal) (r : Fin n) (j : Fin e) : affine h A b (ix2 r j) = affineAt h A b r j := rfl

/-- The bias added between the two products is the bias added after them: (p + b) + q = (p + q) + b for all
    extended reals, infinities included. -/
theorem bias_between (p q b : EReal) : (p + b) + q = (p + q) + b := add_right_comm p b q

end Cert.Sage

end
-- ==== Proof.Payload.lean ====
/-
  What each kernel body stores, read at one entry of its block.

  A body loads a block of rows `x0` (and, in a layer, a second block `x1`), the weight matrices and the one-row bias,
  multiplies rows by columns on the matrix unit into a zero accumulator, adds the bias row to every row and, in the
  first two layers, takes the maximum with zero. A change of float format is the identity on the extended reals, a
  shape cast between equal shapes is the identity, and a product into the zero accumulator is the plain sum over the
  shared coordinate, so entry (p, q) of the stored block is
      (Σ_k x0[p,k]·x2[k,q] + Σ_k x1[p,k]·x3[k,q]) + x4[0,q]      (then max with zero),
  and for the classifier  Σ_k x0[p,k]·x1[k,q] + x2[0,q].
-/
import proofs.«118724_j893353198160_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg

open Idealize.ShloMosaic Idealize.ShloMosaic.ValueIdx Cert.KernelIdeal Cert.KernelIdeal.Gen

/-! ## The layer's product: 5000 × 64 rows by a 64 × 64 matrix -/

theorem lhs64_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs64_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs64_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs64_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The matrix unit's product of a block of rows with a 64 × 64 matrix into the zero accumulator, at (p, q): the sum
    over the shared coordinate of row p's entries times column q's. -/
theorem matmul64_apply (x : FVec Ideal S5000x64 .bf16) (w : FVec Ideal S64x64 .bf16) (p : Fin 5000) (q : Fin 64) :
    matmul dot_S5000x64_S64x64_S5000x64_1_0_0_1_n_n none x w (constant S5000x64 .f32 0x00000000#32) (ix2 p q)
      = ∑ k : Fin 64, x (ix2 p k) * w (ix2 k q) := by
  show FloatOps.matmul _ _ _ _ _ _ = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs64_0 _ _
    | ⟨1, _⟩ => exact (lhs64_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-! ## The classifier's product: 5000 × 64 rows by a 64 × 2 matrix -/

theorem lhs2_0 (i : S5000x2.Idx) (q : dot_S5000x64_S64x2_S5000x2_1_0_0_1_n_n.contr.Idx) :
    (dot_S5000x64_S64x2_S5000x2_1_0_0_1_n_n.lhsIdx i q 0).val = (i 0).val := by
  unfold DotDims.lhsIdx
  rw [dif_neg (show ¬(0 : Fin S5000x64.rank) ∈ dot_S5000x64_S64x2_S5000x2_1_0_0_1_n_n.lhsBatch by decide), dif_pos (show (0 : Fin S5000x64.rank) ∈ dot_S5000x64_S64x2_S5000x2_1_0_0_1_n_n.lhsNonContracting by decide)]
  rfl
theorem lhs2_1 (i : S5000x2.Idx) (q : dot_S5000x64_S64x2_S5000x2_1_0_0_1_n_n.contr.Idx) :
    (dot_S5000x64_S64x2_S5000x2_1_0_0_1_n_n.lhsIdx i q 1).val = (q ⟨0, by decide⟩).val :=
  dot_S5000x64_S64x2_S5000x2_1_0_0_1_n_n.lhsIdx_val_of_single rfl i q
theorem rhs2_0 (i : S5000x2.Idx) (q : dot_S5000x64_S64x2_S5000x2_1_0_0_1_n_n.contr.Idx) :
    (dot_S5000x64_S64x2_S5000x2_1_0_0_1_n_n.rhsIdx i q 0).val = (q ⟨0, by decide⟩).val :=
  dot_S5000x64_S64x2_S5000x2_1_0_0_1_n_n.rhsIdx_val_of_single rfl i q
theorem rhs2_1 (i : S5000x2.Idx) (q : dot_S5000x64_S64x2_S5000x2_1_0_0_1_n_n.contr.Idx) :
    (dot_S5000x64_S64x2_S5000x2_1_0_0_1_n_n.rhsIdx i q 1).val = (i 1).val := by
  unfold DotDims.rhsIdx
  rw [dif_neg (show ¬(1 : Fin S64x2.rank) ∈ dot_S5000x64_S64x2_S5000x2_1_0_0_1_n_n.rhsBatch by decide), dif_pos (show (1 : Fin S64x2.rank) ∈ dot_S5000x64_S64x2_S5000x2_1_0_0_1_n_n.rhsNonContracting by decide)]
  rfl

/-- The same product with a 64 × 2 matrix. -/
theorem matmul2_apply (x : FVec Ideal S5000x64 .bf16) (w : FVec Ideal S64x2 .bf16) (p : Fin 5000) (q : Fin 2) :
    matmul dot_S5000x64_S64x2_S5000x2_1_0_0_1_n_n none x w (constant S5000x2 .f32 0x00000000#32) (ix2 p q)
      = ∑ k : Fin 64, x (ix2 p k) * w (ix2 k q) := by
  show FloatOps.matmul _ _ _ _ _ _ = _
  rw [Ideal.matmul_constant_zero_apply, ← Equiv.sum_comp (contrEquiv1 dot_S5000x64_S64x2_S5000x2_1_0_0_1_n_n 64 rfl rfl).symm]
  refine Finset.sum_congr rfl fun k _ => ?_
  have hk := contrEquiv1_symm_val dot_S5000x64_S64x2_S5000x2_1_0_0_1_n_n 64 rfl rfl k
  have el : dot_S5000x64_S64x2_S5000x2_1_0_0_1_n_n.lhsIdx (ix2 p q) ((contrEquiv1 dot_S5000x64_S64x2_S5000x2_1_0_0_1_n_n 64 rfl rfl).symm k) = ix2 p k := funext fun a => Fin.ext (by
    match a with
    | ⟨0, _⟩ => exact lhs2_0 _ _
    | ⟨1, _⟩ => exact (lhs2_1 _ _).trans hk)
  have er : dot_S5000x64_S64x2_S5000x2_1_0_0_1_n_n.rhsIdx (ix2 p q) ((contrEquiv1 dot_S5000x64_S64x2_S5000x2_1_0_0_1_n_n 64 rfl rfl).symm k) = ix2 k q := funext fun a => Fin.ext (by
    match a with
    | ⟨0, _⟩ => exact (rhs2_0 _ _).trans hk
    | ⟨1, _⟩ => exact rhs2_1 _ _)
  rw [el, er]

/-! ## The four stored blocks at an entry -/

/-- Layer 1's stored block at (p, q). -/
theorem pay0_apply (x0 x1 : Vec Ideal S5000x64 .f32) (x2 x3 : Vec Ideal S64x64 .bf16) (x4 : Vec Ideal S1x64 .f32)
    (p : Fin 5000) (q : Fin 64) :
    k0_pay1 (F := Ideal) x0 x1 x2 x3 x4 (ix2 p q)
      = max ((∑ k : Fin 64, x0 (ix2 p k) * x2 (ix2 k q) + ∑ k : Fin 64, x1 (ix2 p k) * x3 (ix2 k q)) + x4 (ix2 (0 : Fin 1) q))
          (Ideal.ofBits .f32 0x00000000#32) := by
  unfold k0_pay1
  simp only [maximumf_apply, addf_apply, matmul64_apply, broadcastTo_1b_ab_apply, shapeCast_self, truncf_apply, broadcast_apply]
  rfl

/-- Layer 2's stored block at (p, q). -/
theorem pay1_apply (x0 x1 : Vec Ideal S5000x64 .f32) (x2 x3 : Vec Ideal S64x64 .bf16) (x4 : Vec Ideal S1x64 .f32)
    (p : Fin 5000) (q : Fin 64) :
    k1_pay1 (F := Ideal) x0 x1 x2 x3 x4 (ix2 p q)
      = max ((∑ k : Fin 64, x0 (ix2 p k) * x2 (ix2 k q) + ∑ k : Fin 64, x1 (ix2 p k) * x3 (ix2 k q)) + x4 (ix2 (0 : Fin 1) q))
          (Ideal.ofBits .f32 0x00000000#32) := by
  unfold k1_pay1
  simp only [maximumf_apply, addf_apply, matmul64_apply, broadcastTo_1b_ab_apply, shapeCast_self, truncf_apply, broadcast_apply]
  rfl

/-- Layer 3's stored block at (p, q): no maximum. -/
theorem pay2_apply (x0 x1 : Vec Ideal S5000x64 .f32) (x2 x3 : Vec Ideal S64x64 .bf16) (x4 : Vec Ideal S1x64 .f32)
    (p : Fin 5000) (q : Fin 64) :
    k2_pay1 (F := Ideal) x0 x1 x2 x3 x4 (ix2 p q)
      = (∑ k : Fin 64, x0 (ix2 p k) * x2 (ix2 k q) + ∑ k : Fin 64, x1 (ix2 p k) * x3 (ix2 k q)) + x4 (ix2 (0 : Fin 1) q) := by
  unfold k2_pay1
  simp only [addf_apply, matmul64_apply, broadcastTo_1b_ab_apply, shapeCast_self, truncf_apply]

/-- The classifier's stored block at (p, q). -/
theorem pay3_apply (x0 : Vec Ideal S5000x64 .f32) (x1 : Vec Ideal S64x2 .bf16) (x2 : Vec Ideal S1x2 .f32)
    (p : Fin 5000) (q : Fin 2) :
    k3_pay1 (F := Ideal) x0 x1 x2 (ix2 p q)
      = ∑ k : Fin 64, x0 (ix2 p k) * x1 (ix2 k q) + x2 (ix2 (0 : Fin 1) q) := by
  unfold k3_pay1
  simp only [addf_apply, matmul2_apply, broadcastTo_1b_ab_apply, shapeCast_self, truncf_apply]

end Cert.KernelIdeal.Reg

end
-- ==== Proof.Region0.lean ====
/-
  Layer 1's launch read as one whole-array function: blocks of 5000 rows, each the layer's entries of those rows.
-/
import proofs.«118724_j893353198160_1_alg».proof.Proof.Gen.KernelIdeal.Frame
import proofs.«118724_j893353198160_1_alg».proof.Proof.Spec
import proofs.«118724_j893353198160_1_alg».proof.Proof.Payload
import Idealize.ShloMosaic.Lib.Pipeline.Value
import Idealize.ShloMosaic.Lib.ValueIdx

set_option maxRecDepth 16384

noncomputable section

open scoped BigOperators

namespace Cert.KernelIdeal.Reg

open Idealize.ShloMosaic Idealize.ShloMosaic.TcCoe Idealize.SL.Sem Idealize.ShloMosaic.ValueIdx
open Cert.KernelIdeal Cert.KernelIdeal.Gen
open Idealize.ShloMosaic.Pipeline (Dat Cfg Window)

/-! # Layer 1's launch: the output array as one function of the arrays the launch finds

The launch walks 20 points; point `t` reads rows 5000·t … 5000·t + 4999 of the aggregated rows and of the node rows,
the two whole 64 × 64 matrices and the one-row bias, and writes the same rows of the output. So the output array ends
holding, at every (r, j), the layer's entry there. -/

section Region0

variable (V : (c : Dev nD) → (b : Ref sig .tc) → Buf (Elt Ideal) ((c : Thread nD τ).loc b))

/-- The five input arrays as the launch finds them, at their literal types. -/
abbrev agg0 (c : Dev nD) : FVec Ideal S100000x64 .f32 := V c main_v32
abbrev h0 (c : Dev nD) : FVec Ideal S100000x64 .f32 := V c main_arg0
abbrev wl0 (c : Dev nD) : FVec Ideal S64x64 .bf16 := V c main_v34
abbrev wr0 (c : Dev nD) : FVec Ideal S64x64 .bf16 := V c main_v36
abbrev b0 (c : Dev nD) : FVec Ideal S1x64 .f32 := V c main_v38

theorem hz0 : (![0, 0] : Fin 2 → Nat) = fun _ => 0 := funext fun a => by fin_cases a <;> rfl

/-- The printed index maps over the 20 points: the row-blocked windows sit at block row `t`, the whole ones at 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block is row `5000·t + p` of the array. -/
def row0 (t : Fin cfg0.N) (p : Fin 5000) : Fin 100000 :=
  ⟨t.val * 5000 + p.val, by have := t.isLt; have := p.isLt; have : cfg0.N = 20 := N_0; omega⟩

theorem blk0_0 (c : Dev nD) (t : Fin cfg0.N) (p : Fin 5000) (k : Fin 64) :
    iblk0 V c 0 t (ix2 p k) = agg0 V c (ix2 (row0 t p) k) := by
  obtain ⟨e0, e1, -⟩ := idx_facts0 t
  show V c main_v32 (((cfg0.win 0).blk t).view.emb (ix2 p k)) = V c main_v32 (ix2 (row0 t p) k)
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 64 + 1 * k.val = k.val; omega

theorem blk0_1 (c : Dev nD) (t : Fin cfg0.N) (p : Fin 5000) (k : Fin 64) :
    iblk0 V c 1 t (ix2 p k) = h0 V c (ix2 (row0 t p) k) := by
  obtain ⟨-, -, e0, e1, -⟩ := idx_facts0 t
  show V c main_arg0 (((cfg0.win 1).blk t).view.emb (ix2 p k)) = V c main_arg0 (ix2 (row0 t p) k)
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 64 + 1 * k.val = k.val; omega

theorem blk0_2 (c : Dev nD) (t : Fin cfg0.N) (k q : Fin 64) :
    iblk0 V c 2 t (ix2 k q) = wl0 V c (ix2 k q) := by
  obtain ⟨-, -, -, -, e0, e1, -⟩ := idx_facts0 t
  show V c main_v34 (((cfg0.win 2).blk t).view.emb (ix2 k q)) = V c main_v34 (ix2 k q)
  refine congrArg _ (funext fun a => Fin.ext ?_)
  match a with
  | ⟨0, _⟩ => show win0_2.index t (0 : Fin 2) * 64 + 1 * k.val = k.val; omega
  | ⟨1, _⟩ => show win0_2.index t (1 : Fin 2) * 64 + 1 * q.val = q.val; omega

theorem blk0_3 (c : Dev nD) (t : Fin cfg0.N) (k q : Fin 64) :
    iblk0 V c 3 t (ix2 k q) = wr0 V c (ix2 k q) := by
  obtain ⟨-, -, -, -, -, -, e0, e1, -⟩ := idx_facts0 t
  show V c main_v36 (((cfg0.win 3).blk t).view.emb (ix2 k q)) = V c main_v36 (ix2 k q)
  refine congrArg _ (funext fun a => Fin.ext ?_)
  match a with
  | ⟨0, _⟩ => show win0_3.index t (0 : Fin 2) * 64 + 1 * k.val = k.val; omega
  | ⟨1, _⟩ => show win0_3.index t (1 : Fin 2) * 64 + 1 * q.val = q.val; omega

theorem blk0_4 (c : Dev nD) (t : Fin cfg0.N) (u : Fin 1) (q : Fin 64) :
    iblk0 V c 4 t (ix2 u q) = b0 V c (ix2 u q) := by
  obtain ⟨-, -, -, -, -, -, -, -, e0, e1, -⟩ := idx_facts0 t
  show V c main_v38 (((cfg0.win 4).blk t).view.emb (ix2 u q)) = V c main_v38 (ix2 u q)
  refine congrArg _ (funext fun a => Fin.ext ?_)
  match a with
  | ⟨0, _⟩ => show win0_4.index t (0 : Fin 2) * 1 + 1 * u.val = u.val; omega
  | ⟨1, _⟩ => show win0_4.index t (1 : Fin 2) * 64 + 1 * q.val = q.val; omega

theorem emb0_5 (t : Fin cfg0.N) (p : Fin 5000) (q : Fin 64) :
    ((cfg0.win 5).blk t).view.emb (ix2 p q) = ix2 (row0 t p) q := by
  obtain ⟨-, -, -, -, -, -, -, -, -, -, e0, e1⟩ := idx_facts0 t
  funext a; apply Fin.ext
  match a with
  | ⟨0, _⟩ => show win0_5.index t (0 : Fin 2) * 5000 + 1 * p.val = t.val * 5000 + p.val; omega
  | ⟨1, _⟩ => show win0_5.index t (1 : Fin 2) * 64 + 1 * q.val = q.val; omega

/-- What point `t` writes back is block `t` of the layer's array. -/
theorem flushed0 (c : Dev nD) (t : Fin cfg0.N) :
    (dat0 (F := Ideal) V c).flushed 5 t = ((cfg0.win 5).blk t).view.read (Elt Ideal)
      (Cert.Sage.denseRelu (agg0 V c) (h0 V c) (wl0 V c) (wr0 V c) (fun j => b0 V c (ix2 (0 : Fin 1) j))) := by
  show (cfg0.win 5).cut (grid0.coords t) ((dat0 V c).after 5 t) = _
  rw [after0_5]
  unfold out0_5
  rw [View.canon_unit_zero hz0]
  simp only [View.ld_unit_zero (S := S5000x64) hz0, View.ld_unit_zero (S := S64x64) hz0, View.ld_unit_zero (S := S1x64) hz0]
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = Cert.Sage.denseRelu (agg0 V c) (h0 V c) (wl0 V c) (wr0 V c) (fun j => b0 V c (ix2 (0 : Fin 1) j)) (((cfg0.win 5).blk t).view.emb (ix2 p q))
  rw [pay0_apply, emb0_5, Cert.Sage.denseRelu_apply]
  unfold Cert.Sage.denseAt
  simp only [blk0_0, blk0_1, blk0_2, blk0_3, blk0_4]

/-- An index of the array is in point `t`'s block iff each coordinate is in the block's range on its axis. -/
theorem mem_blk0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v39).slice (win0_5.rect t)).set ↔ _
  rw [View.set_slice_whole, Rect.mem_set_unit]
  exact Iff.rfl

/-- Every row of the array lies in the block of the point `row / 5000`. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  let t : Fin cfg0.N := ⟨(i 0).val / 5000, by omega⟩
  obtain ⟨-, -, -, -, -, -, -, -, -, -, e0, e1⟩ := idx_facts0 t
  have ht : t.val = (i 0).val / 5000 := rfl
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- THE ARRAY after the launch: the layer's array of the five arrays the launch found. -/
theorem final0 (c : Dev nD) : (dat0 (F := Ideal) V c).arrAt 5 cfg0.N
    = Cert.Sage.denseRelu (agg0 V c) (h0 V c) (wl0 V c) (wr0 V c) (fun j => b0 V c (ix2 (0 : Fin 1) j)) :=
  (dat0 (F := Ideal) V c).arrAt_eq_of_cover 5 _ (fun t _ => flushed0 V c t) cover0

end Region0

end Cert.KernelIdeal.Reg

end
-- ==== Proof.Region3.lean ====
/-
  The classifier's launch read as one whole-array function: blocks of 5000 rows, each the classifier's entries of those rows.
-/
import proofs.«118724_j893353198160_1_alg».proof.Proof.Gen.KernelIdeal.Frame
import proofs.«118724_j893353198160_1_alg».proof.Proof.Spec
import proofs.«118724_j893353198160_1_alg».proof.Proof.Payload
import Idealize.ShloMosaic.Lib.Pipeline.Value
import Idealize.ShloMosaic.Lib.ValueIdx

set_option maxRecDepth 16384

noncomputable section

open scoped BigOperators

namespace Cert.KernelIdeal.Reg

open Idealize.ShloMosaic Idealize.ShloMosaic.TcCoe Idealize.SL.Sem Idealize.ShloMosaic.ValueIdx
open Cert.KernelIdeal Cert.KernelIdeal.Gen
open Idealize.ShloMosaic.Pipeline (Dat Cfg Window)

/-! # The classifier's launch: the output array as one function of the arrays the launch finds

Point `t` of 20 reads rows 5000·t … 5000·t + 4999 of the last layer's rows, the whole 64 × 2 matrix and the one-row
bias, and writes the same rows of the 100000 × 2 output. -/

section Region3

variable (V : (c : Dev nD) → (b : Ref sig .tc) → Buf (Elt Ideal) ((c : Thread nD τ).loc b))

/-- The three input arrays as the launch finds them, at their literal types. -/
abbrev h3 (c : Dev nD) : FVec Ideal S100000x64 .f32 := V c main_v77
abbrev wo3 (c : Dev nD) : FVec Ideal S64x2 .bf16 := V c main_v19
abbrev bo3 (c : Dev nD) : FVec Ideal S1x2 .f32 := V c main_v20

theorem hz3 : (![0, 0] : Fin 2 → Nat) = fun _ => 0 := funext fun a => by fin_cases a <;> rfl

/-- The printed index maps over the 20 points: the row-blocked windows sit at block row `t`, the whole ones at 0. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `p` of point `t`'s block is row `5000·t + p` of the array. -/
def row3 (t : Fin cfg3.N) (p : Fin 5000) : Fin 100000 :=
  ⟨t.val * 5000 + p.val, by have := t.isLt; have := p.isLt; have : cfg3.N = 20 := N_3; omega⟩

theorem blk3_0 (c : Dev nD) (t : Fin cfg3.N) (p : Fin 5000) (k : Fin 64) :
    iblk3 V c 0 t (ix2 p k) = h3 V c (ix2 (row3 t p) k) := by
  obtain ⟨e0, e1, -⟩ := idx_facts3 t
  show V c main_v77 (((cfg3.win 0).blk t).view.emb (ix2 p k)) = V c main_v77 (ix2 (row3 t p) k)
  refine congrArg _ (funext fun a => Fin.ext ?_)
  match a with
  | ⟨0, _⟩ => show win3_0.index t (0 : Fin 2) * 5000 + 1 * p.val = t.val * 5000 + p.val; omega
  | ⟨1, _⟩ => show win3_0.index t (1 : Fin 2) * 64 + 1 * k.val = k.val; omega

theorem blk3_1 (c : Dev nD) (t : Fin cfg3.N) (k : Fin 64) (q : Fin 2) :
    iblk3 V c 1 t (ix2 k q) = wo3 V c (ix2 k q) := by
  obtain ⟨-, -, e0, e1, -⟩ := idx_facts3 t
  show V c main_v19 (((cfg3.win 1).blk t).view.emb (ix2 k q)) = V c main_v19 (ix2 k q)
  refine congrArg _ (funext fun a => Fin.ext ?_)
  match a with
  | ⟨0, _⟩ => show win3_1.index t (0 : Fin 2) * 64 + 1 * k.val = k.val; omega
  | ⟨1, _⟩ => show win3_1.index t (1 : Fin 2) * 2 + 1 * q.val = q.val; omega

theorem blk3_2 (c : Dev nD) (t : Fin cfg3.N) (u : Fin 1) (q : Fin 2) :
    iblk3 V c 2 t (ix2 u q) = bo3 V c (ix2 u q) := by
  obtain ⟨-, -, -, -, e0, e1, -⟩ := idx_facts3 t
  show V c main_v20 (((cfg3.win 2).blk t).view.emb (ix2 u q)) = V c main_v20 (ix2 u q)
  refine congrArg _ (funext fun a => Fin.ext ?_)
  match a with
  | ⟨0, _⟩ => show win3_2.index t (0 : Fin 2) * 1 + 1 * u.val = u.val; omega
  | ⟨1, _⟩ => show win3_2.index t (1 : Fin 2) * 2 + 1 * q.val = q.val; omega

theorem emb3_3 (t : Fin cfg3.N) (p : Fin 5000) (q : Fin 2) :
    ((cfg3.win 3).blk t).view.emb (ix2 p q) = ix2 (row3 t p) q := by
  obtain ⟨-, -, -, -, -, -, e0, e1⟩ := idx_facts3 t
  funext a; apply Fin.ext
  match a with
  | ⟨0, _⟩ => show win3_3.index t (0 : Fin 2) * 5000 + 1 * p.val = t.val * 5000 + p.val; omega
  | ⟨1, _⟩ => show win3_3.index t (1 : Fin 2) * 2 + 1 * q.val = q.val; omega

/-- What point `t` writes back is block `t` of the classifier's array. -/
theorem flushed3 (c : Dev nD) (t : Fin cfg3.N) :
    (dat3 (F := Ideal) V c).flushed 3 t = ((cfg3.win 3).blk t).view.read (Elt Ideal)
      (Cert.Sage.affine (h3 V c) (wo3 V c) (fun j => bo3 V c (ix2 (0 : Fin 1) j))) := by
  show (cfg3.win 3).cut (grid3.coords t) ((dat3 V c).after 3 t) = _
  rw [after3_3]
  unfold out3_3
  rw [View.canon_unit_zero hz3]
  simp only [View.ld_unit_zero (S := S5000x64) hz3, View.ld_unit_zero (S := S64x2) hz3, View.ld_unit_zero (S := S1x2) hz3]
  funext j
  obtain ⟨p, q, rfl⟩ : ∃ (p : Fin 5000) (q : Fin 2), j = ix2 p q := ⟨j 0, j 1, eq_ix2 j⟩
  show k3_pay1 (F := Ideal) (iblk3 V c 0 t) (iblk3 V c 1 t) (iblk3 V c 2 t) (ix2 p q)
    = Cert.Sage.affine (h3 V c) (wo3 V c) (fun j => bo3 V c (ix2 (0 : Fin 1) j)) (((cfg3.win 3).blk t).view.emb (ix2 p q))
  rw [pay3_apply, emb3_3, Cert.Sage.affine_apply]
  unfold Cert.Sage.affineAt
  simp only [blk3_0, blk3_1, blk3_2]

/-- An index of the array is in point `t`'s block iff each coordinate is in the block's range on its axis. -/
theorem mem_blk3 (t : Fin cfg3.N) (i : S100000x2.Idx) :
    i ∈ ((cfg3.win 3).blk t).view.set ↔ ∀ a : Fin 2, win3_3.index t a * S5000x2.size a ≤ (i a).val ∧ (i a).val < win3_3.index t a * S5000x2.size a + S5000x2.size a := by
  show i ∈ ((View.whole main_v78).slice (win3_3.rect t)).set ↔ _
  rw [View.set_slice_whole, Rect.mem_set_unit]
  exact Iff.rfl

/-- Every row of the array lies in the block of the point `row / 5000`. -/
theorem cover3 (i : S100000x2.Idx) :
    ∃ t : Fin cfg3.N, (cfg3.win 3).flush t = true ∧ i ∈ ((cfg3.win 3).blk t).view.set := by
  have hi0 : (i 0).val < 100000 := (i 0).isLt
  have hi1 : (i 1).val < 2 := (i 1).isLt
  have hN : cfg3.N = 20 := N_3
  let t : Fin cfg3.N := ⟨(i 0).val / 5000, by omega⟩
  obtain ⟨-, -, -, -, -, -, e0, e1⟩ := idx_facts3 t
  have ht : t.val = (i 0).val / 5000 := rfl
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 2 ≤ (i 1).val ∧ (i 1).val < win3_3.index t (1 : Fin 2) * 2 + 2; omega

/-- THE ARRAY after the launch: the classifier's array of the three arrays the launch found. -/
theorem final3 (c : Dev nD) : (dat3 (F := Ideal) V c).arrAt 3 cfg3.N
    = Cert.Sage.affine (h3 V c) (wo3 V c) (fun j => bo3 V c (ix2 (0 : Fin 1) j)) :=
  (dat3 (F := Ideal) V c).arrAt_eq_of_cover 3 _ (fun t _ => flushed3 V c t) cover3

end Region3

end Cert.KernelIdeal.Reg

end
-- ==== Proof.Fold.lean ====
/-
  The kernel's program read from its last buffer back to its arguments.

  @main is three stretches of host operations and four launches. Each stretch is read with the contents it starts from
  a variable: the buffers it writes as the host chains' terms of what they read, the buffers it does not write as they
  were. Each launch leaves its output array at the layer's (or the classifier's) whole-array function of the arrays it
  found, and every other buffer as it was. Walking the boundaries in order gives the result buffer as one term
  of the seven argument arrays: three layers over the mean of the neighbours' rows, then the classifier.
-/
import proofs.«118724_j893353198160_1_alg».proof.Proof.Gen.KernelIdeal.Frame
import proofs.«118724_j893353198160_1_alg».proof.Proof.Spec
import proofs.«118724_j893353198160_1_alg».proof.Proof.Region0
import proofs.«118724_j893353198160_1_alg».proof.Proof.Region1
import proofs.«118724_j893353198160_1_alg».proof.Proof.Region2
import proofs.«118724_j893353198160_1_alg».proof.Proof.Region3
import Idealize.ShloMosaic.Lib.StableHlo.Run
import Idealize.ShloMosaic.PureOps.Ideal
import Idealize.ShloMosaic.Lib.ValueIdx

set_option maxRecDepth 16384

noncomputable section

open scoped BigOperators

namespace Cert.KernelIdeal.Fold

open Idealize.ShloMosaic Idealize.ShloMosaic.TcCoe Idealize.SL.Sem Idealize.ShloMosaic.StableHlo Idealize.ShloMosaic.ValueIdx
open Cert.KernelIdeal Cert.KernelIdeal.Gen

/-! ## The host chains of the kernel's program, as functions of what they read -/

/-- Row 0 of the edge array: the source node of each edge. -/
def srcT (e : (⟨S2x1000000, .i32⟩ : BufTy).Contents (Elt Ideal)) : (⟨S1000000, .i32⟩ : BufTy).Contents (Elt Ideal) :=
  shapeCast S1000000 (extractStridedSlice S1x1000000 ![0, 0] e slices_S2x1000000_S1x1000000_0_0) shapeCasts_S1x1000000_S1000000

/-- Row 1 of the edge array: the node each edge's message is summed into. -/
def dstT (e : (⟨S2x1000000, .i32⟩ : BufTy).Contents (Elt Ideal)) : (⟨S1000000, .i32⟩ : BufTy).Contents (Elt Ideal) :=
  shapeCast S1000000 (extractStridedSlice S1x1000000 ![1, 0] e slices_S2x1000000_S1x1000000_1_0) shapeCasts_S1x1000000_S1000000

/-- One over the larger of a node's in-degree and one, as a column. -/
def invT (e : (⟨S2x1000000, .i32⟩ : BufTy).Contents (Elt Ideal)) : (⟨S100000x1, .f32⟩ : BufTy).Contents (Elt Ideal) :=
  broadcastInDim S100000x1 ![0] bcast_S100000_S100000x1_0
    (Host.divf (broadcastInDim S100000 ![] bcast_S_S100000 (constant (F := Ideal) S_ .f32 0x3F800000#32))
      (maximumf
        (Host.scatterAdd scatter_S100000_S1000000x1_S1000000_n_0_0_1
          (broadcastInDim S100000 ![] bcast_S_S100000 (constant (F := Ideal) S_ .f32 0x00000000#32))
          (broadcastInDim S1000000x1 ![0] bcast_S1000000_S1000000x1_0 (dstT e))
          (broadcastInDim S1000000 ![] bcast_S_S1000000 (constant (F := Ideal) S_ .f32 0x3F800000#32)))
        (broadcastInDim S100000 ![] bcast_S_S100000 (constant (F := Ideal) S_ .f32 0x3F800000#32))))

/-- The mean of the neighbours' rows: gather the source rows, sum them into their targets, scale each row. -/
def aggT (src dst : (⟨S1000000, .i32⟩ : BufTy).Contents (Elt Ideal)) (inv : (⟨S100000x1, .f32⟩ : BufTy).Contents (Elt Ideal))
    (h : (⟨S100000x64, .f32⟩ : BufTy).Contents (Elt Ideal)) : (⟨S100000x64, .f32⟩ : BufTy).Contents (Elt Ideal) :=
  mulf
    (Host.scatterAdd scatter_S100000x64_S1000000x1_S1000000x64_1_0_0_1
      (broadcastInDim S100000x64 ![] bcast_S_S100000x64 (constant (F := Ideal) S_ .f32 0x00000000#32))
      (broadcastInDim S1000000x1 ![0] bcast_S1000000_S1000000x1_0 dst)
      (Host.gather gather_S100000x64_S1000000x1_S1000000x64_1_0_n_n_0_1_164 h
        (broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 100000#32))) src))))
    (broadcastInDim S100000x64 ![0, 1] bcast_S100000x1_S100000x64_0_1 inv)

/-- The three weight matrices, each transposed, in the matrix unit's input format. -/
def wT3 (W : (⟨S3x64x64, .f32⟩ : BufTy).Contents (Elt Ideal)) : (⟨S3x64x64, .bf16⟩ : BufTy).Contents (Elt Ideal) :=
  truncf (F := Ideal) .bf16 (transpose S3x64x64 [0, 2, 1] W transposes_S3x64x64_S3x64x64_0_2_1) bitsLt_bf16_f32

/-- Layer 1's, 2's and 3's matrix out of the stack. -/
def wSl0 (Wt : (⟨S3x64x64, .bf16⟩ : BufTy).Contents (Elt Ideal)) : (⟨S64x64, .bf16⟩ : BufTy).Contents (Elt Ideal) :=
  shapeCast S64x64 (extractStridedSlice S1x64x64 ![0, 0, 0] Wt slices_S3x64x64_S1x64x64_0_0_0) shapeCasts_S1x64x64_S64x64
def wSl1 (Wt : (⟨S3x64x64, .bf16⟩ : BufTy).Contents (Elt Ideal)) : (⟨S64x64, .bf16⟩ : BufTy).Contents (Elt Ideal) :=
  shapeCast S64x64 (extractStridedSlice S1x64x64 ![1, 0, 0] Wt slices_S3x64x64_S1x64x64_1_0_0) shapeCasts_S1x64x64_S64x64
def wSl2 (Wt : (⟨S3x64x64, .bf16⟩ : BufTy).Contents (Elt Ideal)) : (⟨S64x64, .bf16⟩ : BufTy).Contents (Elt Ideal) :=
  shapeCast S64x64 (extractStridedSlice S1x64x64 ![2, 0, 0] Wt slices_S3x64x64_S1x64x64_2_0_0) shapeCasts_S1x64x64_S64x64

/-- The three bias rows, each as a 1 × 64 matrix. -/
def bT3 (B : (⟨S3x64, .f32⟩ : BufTy).Contents (Elt Ideal)) : (⟨S3x1x64, .f32⟩ : BufTy).Contents (Elt Ideal) :=
  shapeCast S3x1x64 B shapeCasts_S3x64_S3x1x64
def bSl0 (Bt : (⟨S3x1x64, .f32⟩ : BufTy).Contents (Elt Ideal)) : (⟨S1x64, .f32⟩ : BufTy).Contents (Elt Ideal) :=
  shapeCast S1x64 (extractStridedSlice S1x1x64 ![0, 0, 0] Bt slices_S3x1x64_S1x1x64_0_0_0) shapeCasts_S1x1x64_S1x64
def bSl1 (Bt : (⟨S3x1x64, .f32⟩ : BufTy).Contents (Elt Ideal)) : (⟨S1x64, .f32⟩ : BufTy).Contents (Elt Ideal) :=
  shapeCast S1x64 (extractStridedSlice S1x1x64 ![1, 0, 0] Bt slices_S3x1x64_S1x1x64_1_0_0) shapeCasts_S1x1x64_S1x64
def bSl2 (Bt : (⟨S3x1x64, .f32⟩ : BufTy).Contents (Elt Ideal)) : (⟨S1x64, .f32⟩ : BufTy).Contents (Elt Ideal) :=
  shapeCast S1x64 (extractStridedSlice S1x1x64 ![2, 0, 0] Bt slices_S3x1x64_S1x1x64_2_0_0) shapeCasts_S1x1x64_S1x64

/-- The classifier's matrix transposed, and its bias as a 1 × 2 matrix. -/
def woT (Wo : (⟨S2x64, .f32⟩ : BufTy).Contents (Elt Ideal)) : (⟨S64x2, .bf16⟩ : BufTy).Contents (Elt Ideal) :=
  truncf (F := Ideal) .bf16 (transpose S64x2 [1, 0] Wo transposes_S2x64_S64x2_1_0) bitsLt_bf16_f32
def boT (bo : (⟨S2, .f32⟩ : BufTy).Contents (Elt Ideal)) : (⟨S1x2, .f32⟩ : BufTy).Contents (Elt Ideal) :=
  shapeCast S1x2 bo shapeCasts_S2_S1x2

/-! ## The three stretches, from any contents `W` -/

section Stretches

variable (W : Valuation τ sig (Elt Ideal))

/-! ### Before the first launch -/

set_option maxHeartbeats 4000000 in
theorem s0_v32 : StableHlo.after hostOps0 W (Proc.devRef .tc main_v32) = aggT (srcT (W (Proc.devRef .tc main_arg1))) (dstT (W (Proc.devRef .tc main_arg1))) (invT (W (Proc.devRef .tc main_arg1))) (W (Proc.devRef .tc main_arg0)) := by
  after_results_simp <;> rfl
theorem s0_v34 : StableHlo.after hostOps0 W (Proc.devRef .tc main_v34) = wSl0 (wT3 (W (Proc.devRef .tc main_arg2))) := by
  after_results_simp <;> rfl
theorem s0_v36 : StableHlo.after hostOps0 W (Proc.devRef .tc main_v36) = wSl0 (wT3 (W (Proc.devRef .tc main_arg4))) := by
  after_results_simp <;> rfl
theorem s0_v38 : StableHlo.after hostOps0 W (Proc.devRef .tc main_v38) = bSl0 (bT3 (W (Proc.devRef .tc main_arg3))) := by
  after_results_simp <;> rfl
theorem s0_arg0 : StableHlo.after hostOps0 W (Proc.devRef .tc main_arg0) = W (Proc.devRef .tc main_arg0) := by
  after_results_simp <;> rfl
theorem s0_v1 : StableHlo.after hostOps0 W (Proc.devRef .tc main_v1) = srcT (W (Proc.devRef .tc main_arg1)) := by
  after_results_simp <;> rfl
theorem s0_v3 : StableHlo.after hostOps0 W (Proc.devRef .tc main_v3) = dstT (W (Proc.devRef .tc main_arg1)) := by
  after_results_simp <;> rfl
set_option maxHeartbeats 4000000 in
theorem s0_v12 : StableHlo.after hostOps0 W (Proc.devRef .tc main_v12) = invT (W (Proc.devRef .tc main_arg1)) := by
  after_results_simp <;> rfl
theorem s0_v14 : StableHlo.after hostOps0 W (Proc.devRef .tc main_v14) = wT3 (W (Proc.devRef .tc main_arg2)) := by
  after_results_simp <;> rfl
theorem s0_v16 : StableHlo.after hostOps0 W (Proc.devRef .tc main_v16) = wT3 (W (Proc.devRef .tc main_arg4)) := by
  after_results_simp <;> rfl
theorem s0_v17 : StableHlo.after hostOps0 W (Proc.devRef .tc main_v17) = bT3 (W (Proc.devRef .tc main_arg3)) := by
  after_results_simp <;> rfl
theorem s0_v19 : StableHlo.after hostOps0 W (Proc.devRef .tc main_v19) = woT (W (Proc.devRef .tc main_arg5)) := by
  after_results_simp <;> rfl
theorem s0_v20 : StableHlo.after hostOps0 W (Proc.devRef .tc main_v20) = boT (W (Proc.devRef .tc main_arg6)) := by
  after_results_simp <;> rfl

/-! ### Between the first and the second launch -/

set_option maxHeartbeats 4000000 in
theorem s1_v51 : StableHlo.after hostOps1 W (Proc.devRef .tc main_v51) = aggT (W (Proc.devRef .tc main_v1)) (W (Proc.devRef .tc main_v3)) (W (Proc.devRef .tc main_v12)) (W (Proc.devRef .tc main_v39)) := by
  after_results_simp <;> rfl
theorem s1_v53 : StableHlo.after hostOps1 W (Proc.devRef .tc main_v53) = wSl1 (W (Proc.devRef .tc main_v14)) := by
  after_results_simp <;> rfl
theorem s1_v55 : StableHlo.after hostOps1 W (Proc.devRef .tc main_v55) = wSl1 (W (Proc.devRef .tc main_v16)) := by
  after_results_simp <;> rfl
theorem s1_v57 : StableHlo.after hostOps1 W (Proc.devRef .tc main_v57) = bSl1 (W (Proc.devRef .tc main_v17)) := by
  after_results_simp <;> rfl
theorem s1_v39 : StableHlo.after hostOps1 W (Proc.devRef .tc main_v39) = W (Proc.devRef .tc main_v39) := by
  after_results_simp <;> rfl
theorem s1_v1 : StableHlo.after hostOps1 W (Proc.devRef .tc main_v1) = W (Proc.devRef .tc main_v1) := by
  after_results_simp <;> rfl
theorem s1_v3 : StableHlo.after hostOps1 W (Proc.devRef .tc main_v3) = W (Proc.devRef .tc main_v3) := by
  after_results_simp <;> rfl
theorem s1_v12 : StableHlo.after hostOps1 W (Proc.devRef .tc main_v12) = W (Proc.devRef .tc main_v12) := by
  after_results_simp <;> rfl
theorem s1_v14 : StableHlo.after hostOps1 W (Proc.devRef .tc main_v14) = W (Proc.devRef .tc main_v14) := by
  after_results_simp <;> rfl
theorem s1_v16 : StableHlo.after hostOps1 W (Proc.devRef .tc main_v16) = W (Proc.devRef .tc main_v16) := by
  after_results_simp <;> rfl
theorem s1_v17 : StableHlo.after hostOps1 W (Proc.devRef .tc main_v17) = W (Proc.devRef .tc main_v17) := by
  after_results_simp <;> rfl
theorem s1_v19 : StableHlo.after hostOps1 W (Proc.devRef .tc main_v19) = W (Proc.devRef .tc main_v19) := by
  after_results_simp <;> rfl
theorem s1_v20 : StableHlo.after hostOps1 W (Proc.devRef .tc main_v20) = W (Proc.devRef .tc main_v20) := by
  after_results_simp <;> rfl

/-! ### Between the second and the third launch -/

set_option maxHeartbeats 4000000 in
theorem s2_v70 : StableHlo.after hostOps2 W (Proc.devRef .tc main_v70) = aggT (W (Proc.devRef .tc main_v1)) (W (Proc.devRef .tc main_v3)) (W (Proc.devRef .tc main_v12)) (W (Proc.devRef .tc main_v58)) := by
  after_results_simp <;> rfl
theorem s2_v72 : StableHlo.after hostOps2 W (Proc.devRef .tc main_v72) = wSl2 (W (Proc.devRef .tc main_v14)) := by
  after_results_simp <;> rfl
theorem s2_v74 : StableHlo.after hostOps2 W (Proc.devRef .tc main_v74) = wSl2 (W (Proc.devRef .tc main_v16)) := by
  after_results_simp <;> rfl
theorem s2_v76 : StableHlo.after hostOps2 W (Proc.devRef .tc main_v76) = bSl2 (W (Proc.devRef .tc main_v17)) := by
  after_results_simp <;> rfl
theorem s2_v58 : StableHlo.after hostOps2 W (Proc.devRef .tc main_v58) = W (Proc.devRef .tc main_v58) := by
  after_results_simp <;> rfl
theorem s2_v19 : StableHlo.after hostOps2 W (Proc.devRef .tc main_v19) = W (Proc.devRef .tc main_v19) := by
  after_results_simp <;> rfl
theorem s2_v20 : StableHlo.after hostOps2 W (Proc.devRef .tc main_v20) = W (Proc.devRef .tc main_v20) := by
  after_results_simp <;> rfl

end Stretches

end Cert.KernelIdeal.Fold

end
-- ==== Proof.Walk.lean ====
/-
  The boundaries of the kernel's program walked in order, from the launch memory to the result buffer.

  At each boundary every buffer a later step reads is named by its term of the seven argument arrays: a stretch of host
  operations writes its chains' terms over what the boundary before held and keeps the rest; a launch leaves its output
  array at the layer's function of the arrays it found and keeps every other buffer.
-/
import proofs.«118724_j893353198160_1_alg».proof.Proof.Fold

set_option maxRecDepth 16384

noncomputable section

open scoped BigOperators

namespace Cert.KernelIdeal.Fold

open Idealize.ShloMosaic Idealize.ShloMosaic.TcCoe Idealize.SL.Sem Idealize.ShloMosaic.StableHlo Idealize.ShloMosaic.ValueIdx
open Cert.KernelIdeal Cert.KernelIdeal.Gen

/-! ## The rows after each layer, and the result, as terms of the seven argument arrays -/

/-- The node rows after layer 1. -/
def H1 (x0 : (⟨S100000x64, .f32⟩ : BufTy).Contents (Elt Ideal)) (e : (⟨S2x1000000, .i32⟩ : BufTy).Contents (Elt Ideal))
    (x2 : (⟨S3x64x64, .f32⟩ : BufTy).Contents (Elt Ideal)) (x3 : (⟨S3x64, .f32⟩ : BufTy).Contents (Elt Ideal))
    (x4 : (⟨S3x64x64, .f32⟩ : BufTy).Contents (Elt Ideal)) : (⟨S100000x64, .f32⟩ : BufTy).Contents (Elt Ideal) :=
  Cert.Sage.denseRelu (n := 100000) (d := 64) (e := 64) (aggT (srcT e) (dstT e) (invT e) x0) x0 (wSl0 (wT3 x2)) (wSl0 (wT3 x4))
    (fun j => bSl0 (bT3 x3) (ix2 (0 : Fin 1) j))

/-- The node rows after layer 2. -/
def H2 (x0 : (⟨S100000x64, .f32⟩ : BufTy).Contents (Elt Ideal)) (e : (⟨S2x1000000, .i32⟩ : BufTy).Contents (Elt Ideal))
    (x2 : (⟨S3x64x64, .f32⟩ : BufTy).Contents (Elt Ideal)) (x3 : (⟨S3x64, .f32⟩ : BufTy).Contents (Elt Ideal))
    (x4 : (⟨S3x64x64, .f32⟩ : BufTy).Contents (Elt Ideal)) : (⟨S100000x64, .f32⟩ : BufTy).Contents (Elt Ideal) :=
  Cert.Sage.denseRelu (n := 100000) (d := 64) (e := 64) (aggT (srcT e) (dstT e) (invT e) (H1 x0 e x2 x3 x4)) (H1 x0 e x2 x3 x4)
    (wSl1 (wT3 x2)) (wSl1 (wT3 x4)) (fun j => bSl1 (bT3 x3) (ix2 (0 : Fin 1) j))

/-- The node rows after layer 3. -/
def H3 (x0 : (⟨S100000x64, .f32⟩ : BufTy).Contents (Elt Ideal)) (e : (⟨S2x1000000, .i32⟩ : BufTy).Contents (Elt Ideal))
    (x2 : (⟨S3x64x64, .f32⟩ : BufTy).Contents (Elt Ideal)) (x3 : (⟨S3x64, .f32⟩ : BufTy).Contents (Elt Ideal))
    (x4 : (⟨S3x64x64, .f32⟩ : BufTy).Contents (Elt Ideal)) : (⟨S100000x64, .f32⟩ : BufTy).Contents (Elt Ideal) :=
  Cert.Sage.dense (n := 100000) (d := 64) (e := 64) (aggT (srcT e) (dstT e) (invT e) (H2 x0 e x2 x3 x4)) (H2 x0 e x2 x3 x4)
    (wSl2 (wT3 x2)) (wSl2 (wT3 x4)) (fun j => bSl2 (bT3 x3) (ix2 (0 : Fin 1) j))

/-- The kernel program's result. -/
def OUT (x0 : (⟨S100000x64, .f32⟩ : BufTy).Contents (Elt Ideal)) (e : (⟨S2x1000000, .i32⟩ : BufTy).Contents (Elt Ideal))
    (x2 : (⟨S3x64x64, .f32⟩ : BufTy).Contents (Elt Ideal)) (x3 : (⟨S3x64, .f32⟩ : BufTy).Contents (Elt Ideal))
    (x4 : (⟨S3x64x64, .f32⟩ : BufTy).Contents (Elt Ideal)) (x5 : (⟨S2x64, .f32⟩ : BufTy).Contents (Elt Ideal))
    (x6 : (⟨S2, .f32⟩ : BufTy).Contents (Elt Ideal)) : (⟨S100000x2, .f32⟩ : BufTy).Contents (Elt Ideal) :=
  Cert.Sage.affine (n := 100000) (d := 64) (e := 2) (H3 x0 e x2 x3 x4) (woT x5) (fun j => boT x6 (ix2 (0 : Fin 1) j))

section Walk

variable (m : (ℓ : Loc nD τ sig) → Buf (Elt Ideal) ℓ) (ρ : Dev nD → PrngReg) (c : Dev nD)

/-- The seven argument arrays as launched, at their literal types. -/
abbrev A0 : (⟨S100000x64, .f32⟩ : BufTy).Contents (Elt Ideal) := m ((c : Thread nD τ).loc main_arg0)
abbrev A1 : (⟨S2x1000000, .i32⟩ : BufTy).Contents (Elt Ideal) := m ((c : Thread nD τ).loc main_arg1)
abbrev A2 : (⟨S3x64x64, .f32⟩ : BufTy).Contents (Elt Ideal) := m ((c : Thread nD τ).loc main_arg2)
abbrev A3 : (⟨S3x64, .f32⟩ : BufTy).Contents (Elt Ideal) := m ((c : Thread nD τ).loc main_arg3)
abbrev A4 : (⟨S3x64x64, .f32⟩ : BufTy).Contents (Elt Ideal) := m ((c : Thread nD τ).loc main_arg4)
abbrev A5 : (⟨S2x64, .f32⟩ : BufTy).Contents (Elt Ideal) := m ((c : Thread nD τ).loc main_arg5)
abbrev A6 : (⟨S2, .f32⟩ : BufTy).Contents (Elt Ideal) := m ((c : Thread nD τ).loc main_arg6)

/-! ### Entering the first launch -/

theorem W1_v32 : W1 m ρ c (Proc.devRef .tc main_v32) = aggT (srcT (A1 m c)) (dstT (A1 m c)) (invT (A1 m c)) (A0 m c) := s0_v32 (W0 m ρ c)
theorem W1_v34 : W1 m ρ c (Proc.devRef .tc main_v34) = wSl0 (wT3 (A2 m c)) := s0_v34 (W0 m ρ c)
theorem W1_v36 : W1 m ρ c (Proc.devRef .tc main_v36) = wSl0 (wT3 (A4 m c)) := s0_v36 (W0 m ρ c)
theorem W1_v38 : W1 m ρ c (Proc.devRef .tc main_v38) = bSl0 (bT3 (A3 m c)) := s0_v38 (W0 m ρ c)
theorem W1_arg0 : W1 m ρ c (Proc.devRef .tc main_arg0) = A0 m c := s0_arg0 (W0 m ρ c)
theorem W1_v1 : W1 m ρ c (Proc.devRef .tc main_v1) = srcT (A1 m c) := s0_v1 (W0 m ρ c)
theorem W1_v3 : W1 m ρ c (Proc.devRef .tc main_v3) = dstT (A1 m c) := s0_v3 (W0 m ρ c)
theorem W1_v12 : W1 m ρ c (Proc.devRef .tc main_v12) = invT (A1 m c) := s0_v12 (W0 m ρ c)
theorem W1_v14 : W1 m ρ c (Proc.devRef .tc main_v14) = wT3 (A2 m c) := s0_v14 (W0 m ρ c)
theorem W1_v16 : W1 m ρ c (Proc.devRef .tc main_v16) = wT3 (A4 m c) := s0_v16 (W0 m ρ c)
theorem W1_v17 : W1 m ρ c (Proc.devRef .tc main_v17) = bT3 (A3 m c) := s0_v17 (W0 m ρ c)
theorem W1_v19 : W1 m ρ c (Proc.devRef .tc main_v19) = woT (A5 m c) := s0_v19 (W0 m ρ c)
theorem W1_v20 : W1 m ρ c (Proc.devRef .tc main_v20) = boT (A6 m c) := s0_v20 (W0 m ρ c)

/-! ### Leaving the first launch -/

theorem W2_v39 : W2 m ρ c (Proc.devRef .tc main_v39) = H1 (A0 m c) (A1 m c) (A2 m c) (A3 m c) (A4 m c) := by
  refine (W2_arr m ρ c 5).trans ((Reg.final0 (V1 m ρ) c).trans ?_)
  unfold H1
  show Cert.Sage.denseRelu (W1 m ρ c (Proc.devRef .tc main_v32)) (W1 m ρ c (Proc.devRef .tc main_arg0)) (W1 m ρ c (Proc.devRef .tc main_v34)) (W1 m ρ c (Proc.devRef .tc main_v36))
    (fun j => W1 m ρ c (Proc.devRef .tc main_v38) (ix2 (0 : Fin 1) j)) = _
  rw [W1_v32, W1_arg0, W1_v34, W1_v36, W1_v38]
theorem W2_v1 : W2 m ρ c (Proc.devRef .tc main_v1) = srcT (A1 m c) := (W2_of_ne m ρ c main_v1 (by decide)).trans (W1_v1 m ρ c)
theorem W2_v3 : W2 m ρ c (Proc.devRef .tc main_v3) = dstT (A1 m c) := (W2_of_ne m ρ c main_v3 (by decide)).trans (W1_v3 m ρ c)
theorem W2_v12 : W2 m ρ c (Proc.devRef .tc main_v12) = invT (A1 m c) := (W2_of_ne m ρ c main_v12 (by decide)).trans (W1_v12 m ρ c)
theorem W2_v14 : W2 m ρ c (Proc.devRef .tc main_v14) = wT3 (A2 m c) := (W2_of_ne m ρ c main_v14 (by decide)).trans (W1_v14 m ρ c)
theorem W2_v16 : W2 m ρ c (Proc.devRef .tc main_v16) = wT3 (A4 m c) := (W2_of_ne m ρ c main_v16 (by decide)).trans (W1_v16 m ρ c)
theorem W2_v17 : W2 m ρ c (Proc.devRef .tc main_v17) = bT3 (A3 m c) := (W2_of_ne m ρ c main_v17 (by decide)).trans (W1_v17 m ρ c)
theorem W2_v19 : W2 m ρ c (Proc.devRef .tc main_v19) = woT (A5 m c) := (W2_of_ne m ρ c main_v19 (by decide)).trans (W1_v19 m ρ c)
theorem W2_v20 : W2 m ρ c (Proc.devRef .tc main_v20) = boT (A6 m c) := (W2_of_ne m ρ c main_v20 (by decide)).trans (W1_v20 m ρ c)

/-! ### Entering the second launch -/

theorem W3_v51 : W3 m ρ c (Proc.devRef .tc main_v51) = aggT (srcT (A1 m c)) (dstT (A1 m c)) (invT (A1 m c)) (H1 (A0 m c) (A1 m c) (A2 m c) (A3 m c) (A4 m c)) :=
  (s1_v51 (W2 m ρ c)).trans (by rw [W2_v1, W2_v3, W2_v12, W2_v39])
theorem W3_v53 : W3 m ρ c (Proc.devRef .tc main_v53) = wSl1 (wT3 (A2 m c)) := (s1_v53 (W2 m ρ c)).trans (by rw [W2_v14])
theorem W3_v55 : W3 m ρ c (Proc.devRef .tc main_v55) = wSl1 (wT3 (A4 m c)) := (s1_v55 (W2 m ρ c)).trans (by rw [W2_v16])
theorem W3_v57 : W3 m ρ c (Proc.devRef .tc main_v57) = bSl1 (bT3 (A3 m c)) := (s1_v57 (W2 m ρ c)).trans (by rw [W2_v17])
theorem W3_v39 : W3 m ρ c (Proc.devRef .tc main_v39) = H1 (A0 m c) (A1 m c) (A2 m c) (A3 m c) (A4 m c) := (s1_v39 (W2 m ρ c)).trans (W2_v39 m ρ c)
theorem W3_v1 : W3 m ρ c (Proc.devRef .tc main_v1) = srcT (A1 m c) := (s1_v1 (W2 m ρ c)).trans (W2_v1 m ρ c)
theorem W3_v3 : W3 m ρ c (Proc.devRef .tc main_v3) = dstT (A1 m c) := (s1_v3 (W2 m ρ c)).trans (W2_v3 m ρ c)
theorem W3_v12 : W3 m ρ c (Proc.devRef .tc main_v12) = invT (A1 m c) := (s1_v12 (W2 m ρ c)).trans (W2_v12 m ρ c)
theorem W3_v14 : W3 m ρ c (Proc.devRef .tc main_v14) = wT3 (A2 m c) := (s1_v14 (W2 m ρ c)).trans (W2_v14 m ρ c)
theorem W3_v16 : W3 m ρ c (Proc.devRef .tc main_v16) = wT3 (A4 m c) := (s1_v16 (W2 m ρ c)).trans (W2_v16 m ρ c)
theorem W3_v17 : W3 m ρ c (Proc.devRef .tc main_v17) = bT3 (A3 m c) := (s1_v17 (W2 m ρ c)).trans (W2_v17 m ρ c)
theorem W3_v19 : W3 m ρ c (Proc.devRef .tc main_v19) = woT (A5 m c) := (s1_v19 (W2 m ρ c)).trans (W2_v19 m ρ c)
theorem W3_v20 : W3 m ρ c (Proc.devRef .tc main_v20) = boT (A6 m c) := (s1_v20 (W2 m ρ c)).trans (W2_v20 m ρ c)

/-! ### Leaving the second launch -/

theorem W4_v58 : W4 m ρ c (Proc.devRef .tc main_v58) = H2 (A0 m c) (A1 m c) (A2 m c) (A3 m c) (A4 m c) := by
  refine (W4_arr m ρ c 5).trans ((Reg.final1 (V3 m ρ) c).trans ?_)
  unfold H2
  show Cert.Sage.denseRelu (W3 m ρ c (Proc.devRef .tc main_v51)) (W3 m ρ c (Proc.devRef .tc main_v39)) (W3 m ρ c (Proc.devRef .tc main_v53)) (W3 m ρ c (Proc.devRef .tc main_v55))
    (fun j => W3 m ρ c (Proc.devRef .tc main_v57) (ix2 (0 : Fin 1) j)) = _
  rw [W3_v51, W3_v39, W3_v53, W3_v55, W3_v57]
theorem W4_v1 : W4 m ρ c (Proc.devRef .tc main_v1) = srcT (A1 m c) := (W4_of_ne m ρ c main_v1 (by decide)).trans (W3_v1 m ρ c)
theorem W4_v3 : W4 m ρ c (Proc.devRef .tc main_v3) = dstT (A1 m c) := (W4_of_ne m ρ c main_v3 (by decide)).trans (W3_v3 m ρ c)
theorem W4_v12 : W4 m ρ c (Proc.devRef .tc main_v12) = invT (A1 m c) := (W4_of_ne m ρ c main_v12 (by decide)).trans (W3_v12 m ρ c)
theorem W4_v14 : W4 m ρ c (Proc.devRef .tc main_v14) = wT3 (A2 m c) := (W4_of_ne m ρ c main_v14 (by decide)).trans (W3_v14 m ρ c)
theorem W4_v16 : W4 m ρ c (Proc.devRef .tc main_v16) = wT3 (A4 m c) := (W4_of_ne m ρ c main_v16 (by decide)).trans (W3_v16 m ρ c)
theorem W4_v17 : W4 m ρ c (Proc.devRef .tc main_v17) = bT3 (A3 m c) := (W4_of_ne m ρ c main_v17 (by decide)).trans (W3_v17 m ρ c)
theorem W4_v19 : W4 m ρ c (Proc.devRef .tc main_v19) = woT (A5 m c) := (W4_of_ne m ρ c main_v19 (by decide)).trans (W3_v19 m ρ c)
theorem W4_v20 : W4 m ρ c (Proc.devRef .tc main_v20) = boT (A6 m c) := (W4_of_ne m ρ c main_v20 (by decide)).trans (W3_v20 m ρ c)

/-! ### Entering the third launch -/

theorem W5_v70 : W5 m ρ c (Proc.devRef .tc main_v70) = aggT (srcT (A1 m c)) (dstT (A1 m c)) (invT (A1 m c)) (H2 (A0 m c) (A1 m c) (A2 m c) (A3 m c) (A4 m c)) :=
  (s2_v70 (W4 m ρ c)).trans (by rw [W4_v1, W4_v3, W4_v12, W4_v58])
theorem W5_v72 : W5 m ρ c (Proc.devRef .tc main_v72) = wSl2 (wT3 (A2 m c)) := (s2_v72 (W4 m ρ c)).trans (by rw [W4_v14])
theorem W5_v74 : W5 m ρ c (Proc.devRef .tc main_v74) = wSl2 (wT3 (A4 m c)) := (s2_v74 (W4 m ρ c)).trans (by rw [W4_v16])
theorem W5_v76 : W5 m ρ c (Proc.devRef .tc main_v76) = bSl2 (bT3 (A3 m c)) := (s2_v76 (W4 m ρ c)).trans (by rw [W4_v17])
theorem W5_v58 : W5 m ρ c (Proc.devRef .tc main_v58) = H2 (A0 m c) (A1 m c) (A2 m c) (A3 m c) (A4 m c) := (s2_v58 (W4 m ρ c)).trans (W4_v58 m ρ c)
theorem W5_v19 : W5 m ρ c (Proc.devRef .tc main_v19) = woT (A5 m c) := (s2_v19 (W4 m ρ c)).trans (W4_v19 m ρ c)
theorem W5_v20 : W5 m ρ c (Proc.devRef .tc main_v20) = boT (A6 m c) := (s2_v20 (W4 m ρ c)).trans (W4_v20 m ρ c)

/-! ### Leaving the third launch, which the classifier's launch follows at once -/

theorem W6_v77 : W6 m ρ c (Proc.devRef .tc main_v77) = H3 (A0 m c) (A1 m c) (A2 m c) (A3 m c) (A4 m c) := by
  refine (W6_arr m ρ c 5).trans ((Reg.final2 (V5 m ρ) c).trans ?_)
  unfold H3
  show Cert.Sage.dense (W5 m ρ c (Proc.devRef .tc main_v70)) (W5 m ρ c (Proc.devRef .tc main_v58)) (W5 m ρ c (Proc.devRef .tc main_v72)) (W5 m ρ c (Proc.devRef .tc main_v74))
    (fun j => W5 m ρ c (Proc.devRef .tc main_v76) (ix2 (0 : Fin 1) j)) = _
  rw [W5_v70, W5_v58, W5_v72, W5_v74, W5_v76]
theorem W6_v19 : W6 m ρ c (Proc.devRef .tc main_v19) = woT (A5 m c) := (W6_of_ne m ρ c main_v19 (by decide)).trans (W5_v19 m ρ c)
theorem W6_v20 : W6 m ρ c (Proc.devRef .tc main_v20) = boT (A6 m c) := (W6_of_ne m ρ c main_v20 (by decide)).trans (W5_v20 m ρ c)

/-! ### The result buffer -/

/-- After the classifier's launch the result buffer holds the kernel program's term of the argument arrays. -/
theorem out_eq : W7 m ρ c (Proc.devRef .tc main_v78) = OUT (A0 m c) (A1 m c) (A2 m c) (A3 m c) (A4 m c) (A5 m c) (A6 m c) := by
  refine (W7_arr m ρ c 3).trans ((Reg.final3 (V6 m ρ) c).trans ?_)
  unfold OUT
  show Cert.Sage.affine (W6 m ρ c (Proc.devRef .tc main_v77)) (W6 m ρ c (Proc.devRef .tc main_v19)) (fun j => W6 m ρ c (Proc.devRef .tc main_v20) (ix2 (0 : Fin 1) j)) = _
  rw [W6_v77, W6_v19, W6_v20]

end Walk

end Cert.KernelIdeal.Fold

end
-- ==== Proof.LibStack.lean ====
/-
  General reading lemmas for one matrix (or one row) cut out of a stack and its unit axis dropped, over any extents,
  and the two small functions they are stated with: matrix `l` of a stack transposed, and row `l` of a matrix.

  The weight matrices and bias rows as each program lays them out, put in one form.

  Both programs contract a row of node features with a row of the layer's 64 × 64 matrix `W[l]`: entry (k, j) of the
  matrix a product takes is `W[l, j, k]`. One program transposes the whole stack and then cuts matrix `l` out of it,
  the other cuts matrix `l` out and then transposes it. The bias of layer `l` is row `l` of a 3 × 64 array, reached
  through a 3 × 1 × 64 reshape and a cut in one program, through a cut and a reshape in the other.
-/
import Idealize.ShloMosaic.Lib.ValueLayout
import Idealize.ShloMosaic.Lib.Pipeline.Value

noncomputable section

namespace Cert.LibStack

open Idealize.ShloMosaic Idealize.ShloMosaic.ValueIdx

variable {α : Type}

/-- Matrix `l` of a stack of matrices, transposed: entry (k, j) is `W[l, j, k]`. -/
def wT {L a b : ℕ} (W : (⟨3, ![L, a, b]⟩ : Shape).Idx → α) (l : Fin L) : (⟨2, ![b, a]⟩ : Shape).Idx → α :=
  fun i => W (ix3 l (i 1) (i 0))

/-- Row `l` of a matrix, as a function of the column. -/
def bRow {L b : ℕ} (B : (⟨2, ![L, b]⟩ : Shape).Idx → α) (l : Fin L) : Fin b → α := fun j => B (ix2 l j)

theorem wT_apply {L a b : ℕ} (W : (⟨3, ![L, a, b]⟩ : Shape).Idx → α) (l : Fin L) (k : Fin b) (j : Fin a) :
    wT W l (ix2 k j) = W (ix3 l j k) := rfl

/-- Matrix `o` cut out of a stack and its unit axis dropped reads, at (i, j), the stack at (o, i, j). -/
theorem slice_cast3 {L a b : ℕ} (o : ℕ) (ho : o < L) (X : (⟨3, ![L, a, b]⟩ : Shape).Idx → α)
    (hs : (⟨3, ![L, a, b]⟩ : Shape).Slices ![o, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![o, 0, 0] X hs) hc (ix2 i j) = X (ix3 ⟨o, ho⟩ i j) := by
  rw [shapeCast_1ab_ab_apply]
  exact extractStridedSlice_apply _ X hs _ _ (fun ax => by
    match ax with
    | ⟨0, _⟩ => rfl
    | ⟨1, _⟩ => exact (Nat.zero_add _).symm
    | ⟨2, _⟩ => exact (Nat.zero_add _).symm)

/-- An `[a, b]` array cast to `[a, 1, b]` reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- Row `o` cut out of a matrix and its unit axis dropped reads, at j, the matrix at (o, j). -/
theorem slice_cast2 {L b : ℕ} (o : ℕ) (ho : o < L) (X : (⟨2, ![L, b]⟩ : Shape).Idx → α)
    (hs : (⟨2, ![L, b]⟩ : Shape).Slices ![o, 0] ⟨2, ![1, b]⟩)
    (hc : (⟨2, ![1, b]⟩ : Shape).ShapeCasts ⟨1, ![b]⟩) (j : Fin b) :
    shapeCast ⟨1, ![b]⟩ (extractStridedSlice ⟨2, ![1, b]⟩ ![o, 0] X hs) hc (ix1 j) = X (ix2 ⟨o, ho⟩ j) := by
  rw [shapeCast_1a_a_apply]
  exact slice2_axis0_apply o X hs (0 : Fin 1) j ⟨o, ho⟩ rfl

end Cert.LibStack

end
-- ==== Proof.RefValue.lean ====
/-
  The reference program, stage by stage, in the layer's form.

  Each layer of the reference is  (agg·Wlᵀ + b) + h·Wrᵀ,  then (in the first two layers) the maximum with zero; read at
  an index, with the bias moved behind the second product, it is the layer function of its own stages: the mean of the
  neighbours' rows, the rows themselves, the two transposed matrices and the bias row. The classifier is  h·Woᵀ + bo.
  The matrices and bias rows are read back to the argument arrays: entry (k, j) of layer `l`'s transposed matrix is
  `W[l, j, k]`, and the bias at column j is `B[l, j]`.
-/
import proofs.«118724_j893353198160_1_alg».proof.Proof.Gen.ReferenceIdeal.Read
import proofs.«118724_j893353198160_1_alg».proof.Proof.Spec
import proofs.«118724_j893353198160_1_alg».proof.Proof.LibStack

set_option maxRecDepth 16384

noncomputable section

open scoped BigOperators

namespace Cert.ReferenceIdeal.RefValue

open Idealize.ShloMosaic Idealize.ShloMosaic.ValueIdx Cert.ReferenceIdeal Cert.ReferenceIdeal.Read

/-! ## The layers and the classifier -/

/-- Layer 1 of the reference. -/
theorem layer1 (x0 : (⟨S100000x64, .f32⟩ : BufTy).Contents (Elt Ideal)) (x1 : (⟨S2x1000000, .i32⟩ : BufTy).Contents (Elt Ideal)) (x2 : (⟨S3x64x64, .f32⟩ : BufTy).Contents (Elt Ideal)) (x3 : (⟨S3x64, .f32⟩ : BufTy).Contents (Elt Ideal)) (x4 : (⟨S3x64x64, .f32⟩ : BufTy).Contents (Elt Ideal)) :
    val_main_v39 (F := Ideal) x0 x1 x2 x3 x4
      = Cert.Sage.denseRelu (val_main_v24 (F := Ideal) x0 x1) x0 (val_main_v27 (F := Ideal) x2) (val_main_v36 (F := Ideal) x4) (fun j => val_main_v30 (F := Ideal) x3 (ix1 j)) := by
  funext i
  obtain ⟨r, j, rfl⟩ : ∃ (r : Fin 100000) (j : Fin 64), i = ix2 r j := ⟨i 0, i 1, eq_ix2 i⟩
  rw [val_main_v39_apply, val_main_v38_apply, val_main_v33_apply, val_main_v28_apply, val_main_v37_apply, val_main_v32_apply,
    val_main_v31_apply, val_main_call0_v0_apply, val_main_call0_cst_apply, Cert.Sage.denseRelu_apply]
  have e1 : ∀ k : Fin 64, lidx_main_v28 (ix2 r j) k = ix2 r k := fun k => funext fun a => Fin.ext (by
    match a with | ⟨0, _⟩ => rfl | ⟨1, _⟩ => rfl)
  have e2 : ∀ k : Fin 64, ridx_main_v28 (ix2 r j) k = ix2 k j := fun k => funext fun a => Fin.ext (by
    match a with | ⟨0, _⟩ => rfl | ⟨1, _⟩ => rfl)
  have e3 : ∀ k : Fin 64, lidx_main_v37 (ix2 r j) k = ix2 r k := fun k => funext fun a => Fin.ext (by
    match a with | ⟨0, _⟩ => rfl | ⟨1, _⟩ => rfl)
  have e4 : ∀ k : Fin 64, ridx_main_v37 (ix2 r j) k = ix2 k j := fun k => funext fun a => Fin.ext (by
    match a with | ⟨0, _⟩ => rfl | ⟨1, _⟩ => rfl)
  have e5 : idx_main_v31 (idx_main_v32 (ix2 r j)) = ix1 j := funext fun a => Fin.ext (by
    match a with | ⟨0, _⟩ => rfl)
  simp only [e1, e2, e3, e4, e5]
  unfold Cert.Sage.denseAt
  show max ((_ + _) + _) _ = max ((_ + _) + _) _
  rw [Cert.Sage.bias_between]
  rfl

/-- Layer 2 of the reference, over layer 1's rows. -/
theorem layer2 (x0 : (⟨S100000x64, .f32⟩ : BufTy).Contents (Elt Ideal)) (x1 : (⟨S2x1000000, .i32⟩ : BufTy).Contents (Elt Ideal)) (x2 : (⟨S3x64x64, .f32⟩ : BufTy).Contents (Elt Ideal)) (x3 : (⟨S3x64, .f32⟩ : BufTy).Contents (Elt Ideal)) (x4 : (⟨S3x64x64, .f32⟩ : BufTy).Contents (Elt Ideal)) :
    val_main_v66 (F := Ideal) x0 x1 x2 x3 x4
      = Cert.Sage.denseRelu (val_main_v51 (F := Ideal) x0 x1 x2 x3 x4) (val_main_v39 (F := Ideal) x0 x1 x2 x3 x4) (val_main_v54 (F := Ideal) x2) (val_main_v63 (F := Ideal) x4) (fun j => val_main_v57 (F := Ideal) x3 (ix1 j)) := by
  funext i
  obtain ⟨r, j, rfl⟩ : ∃ (r : Fin 100000) (j : Fin 64), i = ix2 r j := ⟨i 0, i 1, eq_ix2 i⟩
  rw [val_main_v66_apply, val_main_v65_apply, val_main_v60_apply, val_main_v55_apply, val_main_v64_apply, val_main_v59_apply,
    val_main_v58_apply, val_main_call1_v0_apply, val_main_call1_cst_apply, Cert.Sage.denseRelu_apply]
  have e1 : ∀ k : Fin 64, lidx_main_v55 (ix2 r j) k = ix2 r k := fun k => funext fun a => Fin.ext (by
    match a with | ⟨0, _⟩ => rfl | ⟨1, _⟩ => rfl)
  have e2 : ∀ k : Fin 64, ridx_main_v55 (ix2 r j) k = ix2 k j := fun k => funext fun a => Fin.ext (by
    match a with | ⟨0, _⟩ => rfl | ⟨1, _⟩ => rfl)
  have e3 : ∀ k : Fin 64, lidx_main_v64 (ix2 r j) k = ix2 r k := fun k => funext fun a => Fin.ext (by
    match a with | ⟨0, _⟩ => rfl | ⟨1, _⟩ => rfl)
  have e4 : ∀ k : Fin 64, ridx_main_v64 (ix2 r j) k = ix2 k j := fun k => funext fun a => Fin.ext (by
    match a with | ⟨0, _⟩ => rfl | ⟨1, _⟩ => rfl)
  have e5 : idx_main_v58 (idx_main_v59 (ix2 r j)) = ix1 j := funext fun a => Fin.ext (by
    match a with | ⟨0, _⟩ => rfl)
  simp only [e1, e2, e3, e4, e5]
  unfold Cert.Sage.denseAt
  show max ((_ + _) + _) _ = max ((_ + _) + _) _
  rw [Cert.Sage.bias_between]
  rfl

/-- Layer 3 of the reference, over layer 2's rows: no maximum. -/
theorem layer3 (x0 : (⟨S100000x64, .f32⟩ : BufTy).Contents (Elt Ideal)) (x1 : (⟨S2x1000000, .i32⟩ : BufTy).Contents (Elt Ideal)) (x2 : (⟨S3x64x64, .f32⟩ : BufTy).Contents (Elt Ideal)) (x3 : (⟨S3x64, .f32⟩ : BufTy).Contents (Elt Ideal)) (x4 : (⟨S3x64x64, .f32⟩ : BufTy).Contents (Elt Ideal)) :
    val_main_v92 (F := Ideal) x0 x1 x2 x3 x4
      = Cert.Sage.dense (val_main_v78 (F := Ideal) x0 x1 x2 x3 x4) (val_main_v66 (F := Ideal) x0 x1 x2 x3 x4) (val_main_v81 (F := Ideal) x2) (val_main_v90 (F := Ideal) x4) (fun j => val_main_v84 (F := Ideal) x3 (ix1 j)) := by
  funext i
  obtain ⟨r, j, rfl⟩ : ∃ (r : Fin 100000) (j : Fin 64), i = ix2 r j := ⟨i 0, i 1, eq_ix2 i⟩
  rw [val_main_v92_apply, val_main_v87_apply, val_main_v82_apply, val_main_v91_apply, val_main_v86_apply,
    val_main_v85_apply, Cert.Sage.dense_apply]
  have e1 : ∀ k : Fin 64, lidx_main_v82 (ix2 r j) k = ix2 r k := fun k => funext fun a => Fin.ext (by
    match a with | ⟨0, _⟩ => rfl | ⟨1, _⟩ => rfl)
  have e2 : ∀ k : Fin 64, ridx_main_v82 (ix2 r j) k = ix2 k j := fun k => funext fun a => Fin.ext (by
    match a with | ⟨0, _⟩ => rfl | ⟨1, _⟩ => rfl)
  have e3 : ∀ k : Fin 64, lidx_main_v91 (ix2 r j) k = ix2 r k := fun k => funext fun a => Fin.ext (by
    match a with | ⟨0, _⟩ => rfl | ⟨1, _⟩ => rfl)
  have e4 : ∀ k : Fin 64, ridx_main_v91 (ix2 r j) k = ix2 k j := fun k => funext fun a => Fin.ext (by
    match a with | ⟨0, _⟩ => rfl | ⟨1, _⟩ => rfl)
  have e5 : idx_main_v85 (idx_main_v86 (ix2 r j)) = ix1 j := funext fun a => Fin.ext (by
    match a with | ⟨0, _⟩ => rfl)
  simp only [e1, e2, e3, e4, e5]
  unfold Cert.Sage.denseAt
  show (_ + _) + _ = (_ + _) + _
  rw [Cert.Sage.bias_between]

/-- The classifier of the reference, over layer 3's rows. -/
theorem classifier (x0 : (⟨S100000x64, .f32⟩ : BufTy).Contents (Elt Ideal)) (x1 : (⟨S2x1000000, .i32⟩ : BufTy).Contents (Elt Ideal)) (x2 : (⟨S3x64x64, .f32⟩ : BufTy).Contents (Elt Ideal)) (x3 : (⟨S3x64, .f32⟩ : BufTy).Contents (Elt Ideal)) (x4 : (⟨S3x64x64, .f32⟩ : BufTy).Contents (Elt Ideal)) (x5 : (⟨S2x64, .f32⟩ : BufTy).Contents (Elt Ideal)) (x6 : (⟨S2, .f32⟩ : BufTy).Contents (Elt Ideal)) :
    val_main_v97 (F := Ideal) x0 x1 x2 x3 x4 x5 x6
      = Cert.Sage.affine (val_main_v92 (F := Ideal) x0 x1 x2 x3 x4) (val_main_v93 (F := Ideal) x5) (fun j => x6 (ix1 j)) := by
  funext i
  obtain ⟨r, j, rfl⟩ : ∃ (r : Fin 100000) (j : Fin 2), i = ix2 r j := ⟨i 0, i 1, eq_ix2 i⟩
  rw [val_main_v97_apply, val_main_v94_apply, val_main_v96_apply, val_main_v95_apply, Cert.Sage.affine_apply]
  have e1 : ∀ k : Fin 64, lidx_main_v94 (ix2 r j) k = ix2 r k := fun k => funext fun a => Fin.ext (by
    match a with | ⟨0, _⟩ => rfl | ⟨1, _⟩ => rfl)
  have e2 : ∀ k : Fin 64, ridx_main_v94 (ix2 r j) k = ix2 k j := fun k => funext fun a => Fin.ext (by
    match a with | ⟨0, _⟩ => rfl | ⟨1, _⟩ => rfl)
  have e5 : idx_main_v95 (idx_main_v96 (ix2 r j)) = ix1 j := funext fun a => Fin.ext (by
    match a with | ⟨0, _⟩ => rfl)
  simp only [e1, e2, e5]
  rfl

/-! ## The matrices and the bias rows, read back to the arguments -/

theorem w27 (x2 : (⟨S3x64x64, .f32⟩ : BufTy).Contents (Elt Ideal)) : val_main_v27 (F := Ideal) x2 = Cert.LibStack.wT x2 ⟨0, by decide⟩ := by
  funext i
  obtain ⟨k, j, rfl⟩ : ∃ (k : Fin 64) (j : Fin 64), i = ix2 k j := ⟨i 0, i 1, eq_ix2 i⟩
  unfold val_main_v27 val_main_v26 val_main_v25
  rw [transpose_ix2_apply, Cert.LibStack.slice_cast3 0 (by decide)]
  rfl
theorem w54 (x2 : (⟨S3x64x64, .f32⟩ : BufTy).Contents (Elt Ideal)) : val_main_v54 (F := Ideal) x2 = Cert.LibStack.wT x2 ⟨1, by decide⟩ := by
  funext i
  obtain ⟨k, j, rfl⟩ : ∃ (k : Fin 64) (j : Fin 64), i = ix2 k j := ⟨i 0, i 1, eq_ix2 i⟩
  unfold val_main_v54 val_main_v53 val_main_v52
  rw [transpose_ix2_apply, Cert.LibStack.slice_cast3 1 (by decide)]
  rfl
theorem w81 (x2 : (⟨S3x64x64, .f32⟩ : BufTy).Contents (Elt Ideal)) : val_main_v81 (F := Ideal) x2 = Cert.LibStack.wT x2 ⟨2, by decide⟩ := by
  funext i
  obtain ⟨k, j, rfl⟩ : ∃ (k : Fin 64) (j : Fin 64), i = ix2 k j := ⟨i 0, i 1, eq_ix2 i⟩
  unfold val_main_v81 val_main_v80 val_main_v79
  rw [transpose_ix2_apply, Cert.LibStack.slice_cast3 2 (by decide)]
  rfl
theorem w36 (x4 : (⟨S3x64x64, .f32⟩ : BufTy).Contents (Elt Ideal)) : val_main_v36 (F := Ideal) x4 = Cert.LibStack.wT x4 ⟨0, by decide⟩ := by
  funext i
  obtain ⟨k, j, rfl⟩ : ∃ (k : Fin 64) (j : Fin 64), i = ix2 k j := ⟨i 0, i 1, eq_ix2 i⟩
  unfold val_main_v36 val_main_v35 val_main_v34
  rw [transpose_ix2_apply, Cert.LibStack.slice_cast3 0 (by decide)]
  rfl
theorem w63 (x4 : (⟨S3x64x64, .f32⟩ : BufTy).Contents (Elt Ideal)) : val_main_v63 (F := Ideal) x4 = Cert.LibStack.wT x4 ⟨1, by decide⟩ := by
  funext i
  obtain ⟨k, j, rfl⟩ : ∃ (k : Fin 64) (j : Fin 64), i = ix2 k j := ⟨i 0, i 1, eq_ix2 i⟩
  unfold val_main_v63 val_main_v62 val_main_v61
  rw [transpose_ix2_apply, Cert.LibStack.slice_cast3 1 (by decide)]
  rfl
theorem w90 (x4 : (⟨S3x64x64, .f32⟩ : BufTy).Contents (Elt Ideal)) : val_main_v90 (F := Ideal) x4 = Cert.LibStack.wT x4 ⟨2, by decide⟩ := by
  funext i
  obtain ⟨k, j, rfl⟩ : ∃ (k : Fin 64) (j : Fin 64), i = ix2 k j := ⟨i 0, i 1, eq_ix2 i⟩
  unfold val_main_v90 val_main_v89 val_main_v88
  rw [transpose_ix2_apply, Cert.LibStack.slice_cast3 2 (by decide)]
  rfl

theorem b30 (x3 : (⟨S3x64, .f32⟩ : BufTy).Contents (Elt Ideal)) : (fun j : Fin 64 => val_main_v30 (F := Ideal) x3 (ix1 j)) = Cert.LibStack.bRow x3 ⟨0, by decide⟩ := by
  funext j
  unfold val_main_v30 val_main_v29
  exact Cert.LibStack.slice_cast2 0 (by decide) x3 _ _ j
theorem b57 (x3 : (⟨S3x64, .f32⟩ : BufTy).Contents (Elt Ideal)) : (fun j : Fin 64 => val_main_v57 (F := Ideal) x3 (ix1 j)) = Cert.LibStack.bRow x3 ⟨1, by decide⟩ := by
  funext j
  unfold val_main_v57 val_main_v56
  exact Cert.LibStack.slice_cast2 1 (by decide) x3 _ _ j
theorem b84 (x3 : (⟨S3x64, .f32⟩ : BufTy).Contents (Elt Ideal)) : (fun j : Fin 64 => val_main_v84 (F := Ideal) x3 (ix1 j)) = Cert.LibStack.bRow x3 ⟨2, by decide⟩ := by
  funext j
  unfold val_main_v84 val_main_v83
  exact Cert.LibStack.slice_cast2 2 (by decide) x3 _ _ j

end Cert.ReferenceIdeal.RefValue

end
-- ==== Proof.Bridge.lean ====
/-
  The two programs compute one function.

  The kernel program's term of the seven argument arrays and the reference's last stage are both: three layers over the
  mean of the neighbours' rows, then the classifier. The host chain that gathers, sums and scales the neighbours' rows is
  the same operations on both sides and is carried as one function of the rows it is applied to; the matrices and bias
  rows are the same entries of the argument arrays; each layer is the same layer function of equal arrays.
-/
import proofs.«118724_j893353198160_1_alg».proof.Proof.Walk
import proofs.«118724_j893353198160_1_alg».proof.Proof.RefValue
import proofs.«118724_j893353198160_1_alg».proof.Proof.LibStack

set_option maxRecDepth 16384

noncomputable section

open scoped BigOperators

namespace Cert.Bridge

open Idealize.ShloMosaic Idealize.ShloMosaic.ValueIdx
open Cert.KernelIdeal.Fold Cert.ReferenceIdeal.Read Cert.ReferenceIdeal.RefValue

/-! ## The matrices and bias rows of the kernel's program, read back to the arguments -/

theorem kw0 (W : (⟨Cert.KernelIdeal.S3x64x64, .f32⟩ : BufTy).Contents (Elt Ideal)) : wSl0 (wT3 W) = Cert.LibStack.wT W ⟨0, by decide⟩ := by
  funext i
  obtain ⟨k, j, rfl⟩ : ∃ (k : Fin 64) (j : Fin 64), i = ix2 k j := ⟨i 0, i 1, eq_ix2 i⟩
  unfold wSl0 wT3
  rw [Cert.LibStack.slice_cast3 0 (by decide)]
  exact transpose_ix3_021_apply W _ _ k j
theorem kw1 (W : (⟨Cert.KernelIdeal.S3x64x64, .f32⟩ : BufTy).Contents (Elt Ideal)) : wSl1 (wT3 W) = Cert.LibStack.wT W ⟨1, by decide⟩ := by
  funext i
  obtain ⟨k, j, rfl⟩ : ∃ (k : Fin 64) (j : Fin 64), i = ix2 k j := ⟨i 0, i 1, eq_ix2 i⟩
  unfold wSl1 wT3
  rw [Cert.LibStack.slice_cast3 1 (by decide)]
  exact transpose_ix3_021_apply W _ _ k j
theorem kw2 (W : (⟨Cert.KernelIdeal.S3x64x64, .f32⟩ : BufTy).Contents (Elt Ideal)) : wSl2 (wT3 W) = Cert.LibStack.wT W ⟨2, by decide⟩ := by
  funext i
  obtain ⟨k, j, rfl⟩ : ∃ (k : Fin 64) (j : Fin 64), i = ix2 k j := ⟨i 0, i 1, eq_ix2 i⟩
  unfold wSl2 wT3
  rw [Cert.LibStack.slice_cast3 2 (by decide)]
  exact transpose_ix3_021_apply W _ _ k j

theorem kb0 (B : (⟨Cert.KernelIdeal.S3x64, .f32⟩ : BufTy).Contents (Elt Ideal)) : (fun j : Fin 64 => bSl0 (bT3 B) (ix2 (0 : Fin 1) j)) = Cert.LibStack.bRow B ⟨0, by decide⟩ := by
  funext j
  unfold bSl0 bT3
  rw [Cert.LibStack.slice_cast3 0 (by decide)]
  exact Cert.LibStack.shapeCast_ab_a1b_apply B _ _ _ j
theorem kb1 (B : (⟨Cert.KernelIdeal.S3x64, .f32⟩ : BufTy).Contents (Elt Ideal)) : (fun j : Fin 64 => bSl1 (bT3 B) (ix2 (0 : Fin 1) j)) = Cert.LibStack.bRow B ⟨1, by decide⟩ := by
  funext j
  unfold bSl1 bT3
  rw [Cert.LibStack.slice_cast3 1 (by decide)]
  exact Cert.LibStack.shapeCast_ab_a1b_apply B _ _ _ j
theorem kb2 (B : (⟨Cert.KernelIdeal.S3x64, .f32⟩ : BufTy).Contents (Elt Ideal)) : (fun j : Fin 64 => bSl2 (bT3 B) (ix2 (0 : Fin 1) j)) = Cert.LibStack.bRow B ⟨2, by decide⟩ := by
  funext j
  unfold bSl2 bT3
  rw [Cert.LibStack.slice_cast3 2 (by decide)]
  exact Cert.LibStack.shapeCast_ab_a1b_apply B _ _ _ j

/-- The classifier's matrix is the same transposed array on both sides (a change of format is the identity). -/
theorem kwo (x5 : (⟨Cert.KernelIdeal.S2x64, .f32⟩ : BufTy).Contents (Elt Ideal)) : woT x5 = val_main_v93 (F := Ideal) x5 := rfl

/-- The classifier's bias row is the bias vector on both sides. -/
theorem kbo (x6 : (⟨Cert.KernelIdeal.S2, .f32⟩ : BufTy).Contents (Elt Ideal)) : (fun j : Fin 2 => boT x6 (ix2 (0 : Fin 1) j)) = (fun j : Fin 2 => x6 (ix1 j)) := by
  funext j
  unfold boT
  exact shapeCast_a_1a_apply x6 _ _ j

/-! ## The mean of the neighbours' rows is one function of the rows on both sides -/

theorem agg1 (x0 : (⟨Cert.KernelIdeal.S100000x64, .f32⟩ : BufTy).Contents (Elt Ideal)) (e : (⟨Cert.KernelIdeal.S2x1000000, .i32⟩ : BufTy).Contents (Elt Ideal)) : aggT (srcT e) (dstT e) (invT e) x0 = val_main_v24 (F := Ideal) x0 e := rfl

theorem agg2 (x0 : (⟨Cert.KernelIdeal.S100000x64, .f32⟩ : BufTy).Contents (Elt Ideal)) (e : (⟨Cert.KernelIdeal.S2x1000000, .i32⟩ : BufTy).Contents (Elt Ideal)) (x2 : (⟨Cert.KernelIdeal.S3x64x64, .f32⟩ : BufTy).Contents (Elt Ideal)) (x3 : (⟨Cert.KernelIdeal.S3x64, .f32⟩ : BufTy).Contents (Elt Ideal)) (x4 : (⟨Cert.KernelIdeal.S3x64x64, .f32⟩ : BufTy).Contents (Elt Ideal)) :
    aggT (srcT e) (dstT e) (invT e) (val_main_v39 (F := Ideal) x0 e x2 x3 x4) = val_main_v51 (F := Ideal) x0 e x2 x3 x4 := rfl

theorem agg3 (x0 : (⟨Cert.KernelIdeal.S100000x64, .f32⟩ : BufTy).Contents (Elt Ideal)) (e : (⟨Cert.KernelIdeal.S2x1000000, .i32⟩ : BufTy).Contents (Elt Ideal)) (x2 : (⟨Cert.KernelIdeal.S3x64x64, .f32⟩ : BufTy).Contents (Elt Ideal)) (x3 : (⟨Cert.KernelIdeal.S3x64, .f32⟩ : BufTy).Contents (Elt Ideal)) (x4 : (⟨Cert.KernelIdeal.S3x64x64, .f32⟩ : BufTy).Contents (Elt Ideal)) :
    aggT (srcT e) (dstT e) (invT e) (val_main_v66 (F := Ideal) x0 e x2 x3 x4) = val_main_v78 (F := Ideal) x0 e x2 x3 x4 := rfl

/-! ## Layer by layer -/

theorem rows1 (x0 : (⟨Cert.KernelIdeal.S100000x64, .f32⟩ : BufTy).Contents (Elt Ideal)) (e : (⟨Cert.KernelIdeal.S2x1000000, .i32⟩ : BufTy).Contents (Elt Ideal)) (x2 : (⟨Cert.KernelIdeal.S3x64x64, .f32⟩ : BufTy).Contents (Elt Ideal)) (x3 : (⟨Cert.KernelIdeal.S3x64, .f32⟩ : BufTy).Contents (Elt Ideal)) (x4 : (⟨Cert.KernelIdeal.S3x64x64, .f32⟩ : BufTy).Contents (Elt Ideal)) : H1 x0 e x2 x3 x4 = val_main_v39 (F := Ideal) x0 e x2 x3 x4 := by
  rw [layer1, w27, w36, b30]
  unfold H1
  rw [kw0, kw0, kb0, agg1]

theorem rows2 (x0 : (⟨Cert.KernelIdeal.S100000x64, .f32⟩ : BufTy).Contents (Elt Ideal)) (e : (⟨Cert.KernelIdeal.S2x1000000, .i32⟩ : BufTy).Contents (Elt Ideal)) (x2 : (⟨Cert.KernelIdeal.S3x64x64, .f32⟩ : BufTy).Contents (Elt Ideal)) (x3 : (⟨Cert.KernelIdeal.S3x64, .f32⟩ : BufTy).Contents (Elt Ideal)) (x4 : (⟨Cert.KernelIdeal.S3x64x64, .f32⟩ : BufTy).Contents (Elt Ideal)) : H2 x0 e x2 x3 x4 = val_main_v66 (F := Ideal) x0 e x2 x3 x4 := by
  rw [layer2, w54, w63, b57]
  unfold H2
  rw [kw1, kw1, kb1, rows1, agg2]

theorem rows3 (x0 : (⟨Cert.KernelIdeal.S100000x64, .f32⟩ : BufTy).Contents (Elt Ideal)) (e : (⟨Cert.KernelIdeal.S2x1000000, .i32⟩ : BufTy).Contents (Elt Ideal)) (x2 : (⟨Cert.KernelIdeal.S3x64x64, .f32⟩ : BufTy).Contents (Elt Ideal)) (x3 : (⟨Cert.KernelIdeal.S3x64, .f32⟩ : BufTy).Contents (Elt Ideal)) (x4 : (⟨Cert.KernelIdeal.S3x64x64, .f32⟩ : BufTy).Contents (Elt Ideal)) : H3 x0 e x2 x3 x4 = val_main_v92 (F := Ideal) x0 e x2 x3 x4 := by
  rw [layer3, w81, w90, b84]
  unfold H3
  rw [kw2, kw2, kb2, rows2, agg3]

/-- THE RESULT of the kernel's program is the reference's last stage, as functions of the seven argument arrays. -/
theorem out_eq_ref (x0 : (⟨Cert.KernelIdeal.S100000x64, .f32⟩ : BufTy).Contents (Elt Ideal)) (e : (⟨Cert.KernelIdeal.S2x1000000, .i32⟩ : BufTy).Contents (Elt Ideal)) (x2 : (⟨Cert.KernelIdeal.S3x64x64, .f32⟩ : BufTy).Contents (Elt Ideal)) (x3 : (⟨Cert.KernelIdeal.S3x64, .f32⟩ : BufTy).Contents (Elt Ideal)) (x4 : (⟨Cert.KernelIdeal.S3x64x64, .f32⟩ : BufTy).Contents (Elt Ideal)) (x5 : (⟨Cert.KernelIdeal.S2x64, .f32⟩ : BufTy).Contents (Elt Ideal)) (x6 : (⟨Cert.KernelIdeal.S2, .f32⟩ : BufTy).Contents (Elt Ideal)) :
    OUT x0 e x2 x3 x4 x5 x6 = val_main_v97 (F := Ideal) x0 e x2 x3 x4 x5 x6 := by
  rw [classifier]
  unfold OUT
  rw [kwo, kbo, rows3]

end Cert.Bridge

end
-- ==== Proof.lean ====
/-
  A three-layer graph network — each layer the mean of a node's in-neighbours' rows times one matrix, plus the node's own
  row times another, plus a bias, the first two layers followed by the maximum with zero — and a linear classifier, computed
  two ways. The kernel's program does the gather, the sum into target nodes and the scaling on the host and each layer's
  dense part in a launch over blocks of 5000 rows, with the matrices transposed beforehand and the bias added last; the
  reference does everything on the host, transposing each matrix where it is used and adding the bias between the two
  products. At the ideal instance a change of float format is the identity, a product into a zero accumulator is the plain
  sum, blocks of rows tile the array, and (p + b) + q = (p + q) + b on the extended reals; so the two programs end with the
  same array, whatever the edge indices are and with no use of finiteness.

  The three frames are the generated ones (the reference's is its generated run with the result dropped); nothing was
  rewritten by the idealization, so `preserves` asks nothing; `algebraic` pairs the kernel program's run, its result
  buffer read back to the arguments, with the reference's generated run, its last stage read layer by layer.
-/
import proofs.«118724_j893353198160_1_alg».proof.Defs
import proofs.«118724_j893353198160_1_alg».proof.Proof.Gen.Kernel
import proofs.«118724_j893353198160_1_alg».proof.Proof.Gen.Kernel.Skeleton
import proofs.«118724_j893353198160_1_alg».proof.Proof.Gen.Kernel.Launch
import proofs.«118724_j893353198160_1_alg».proof.Proof.Gen.Kernel.Points
import proofs.«118724_j893353198160_1_alg».proof.Proof.Gen.Kernel.Frame
import proofs.«118724_j893353198160_1_alg».proof.Proof.Gen.KernelIdeal
import proofs.«118724_j893353198160_1_alg».proof.Proof.Gen.KernelIdeal.Skeleton
import proofs.«118724_j893353198160_1_alg».proof.Proof.Gen.KernelIdeal.Launch
import proofs.«118724_j893353198160_1_alg».proof.Proof.Gen.KernelIdeal.Points
import proofs.«118724_j893353198160_1_alg».proof.Proof.Gen.KernelIdeal.Frame
import proofs.«118724_j893353198160_1_alg».proof.Proof.Gen.ReferenceIdeal
import proofs.«118724_j893353198160_1_alg».proof.Proof.Gen.Pre_finite_inputs
import proofs.«118724_j893353198160_1_alg».proof.Proof.Gen.ReferenceIdeal.Run
import proofs.«118724_j893353198160_1_alg».proof.Proof.Gen.ReferenceIdeal.Read
import proofs.«118724_j893353198160_1_alg».proof.Proof.KernelRun
import proofs.«118724_j893353198160_1_alg».proof.Proof.Walk
import proofs.«118724_j893353198160_1_alg».proof.Proof.Bridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's frame: its run, the result dropped
    exact fun m ρ _ => (θ_run Cert.ReferenceIdeal.defs _ _).mono (fun _ h c => (h c).2) (Cert.ReferenceIdeal.Value.run (F := Ideal) m ρ)
  · -- both programs end with the kernel program's term of the kernel side's argument arrays
    intro m ρ m' ρ' _ hagree
    refine ⟨fun c => Cert.KernelIdeal.Fold.OUT (Cert.KernelIdeal.Fold.A0 m c) (Cert.KernelIdeal.Fold.A1 m c) (Cert.KernelIdeal.Fold.A2 m c)
      (Cert.KernelIdeal.Fold.A3 m c) (Cert.KernelIdeal.Fold.A4 m c) (Cert.KernelIdeal.Fold.A5 m c) (Cert.KernelIdeal.Fold.A6 m c), ?_, ?_⟩
    · exact (θ_run Cert.KernelIdeal.defs _ _).mono (fun _ h c => ⟨(h c).1.trans (Cert.KernelIdeal.Fold.out_eq m ρ c), (h c).2⟩)
        (Cert.KernelIdeal.Out.run (F := Ideal) m ρ)
    · refine (θ_run Cert.ReferenceIdeal.defs _ _).mono (fun _ h c => ⟨(h c).1.trans ?_, (h c).2⟩)
        (Cert.ReferenceIdeal.Value.run (F := Ideal) m' ρ')
      rw [Cert.ReferenceIdeal.Read.val_main_v97_eq, (hagree c).1, (hagree c).2.1, (hagree c).2.2.1, (hagree c).2.2.2.1, (hagree c).2.2.2.2.1, (hagree c).2.2.2.2.2.1, (hagree c).2.2.2.2.2.2]
      exact (Cert.Bridge.out_eq_ref _ _ _ _ _ _ _).symm⟩

end Cert.Proof

end
